-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000x48 : Shape := ⟨2, ![1600000, 48]⟩
abbrev S64x32 : Shape := ⟨2, ![64, 32]⟩
abbrev S100000 : Shape := ⟨1, ![100000]⟩
abbrev S144x128 : Shape := ⟨2, ![144, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x48 : S_.BroadcastsInDim S1600000x48 (![] : Fin 0 → Fin S1600000x48.rank)
  reducesTo_S1600000x48_S_d0_1 : S1600000x48.ReducesTo [0, 1] S_
  bcast_S_S64x32 : S_.BroadcastsInDim S64x32 (![] : Fin 0 → Fin S64x32.rank)
  reducesTo_S64x32_S_d0_1 : S64x32.ReducesTo [0, 1] S_
  bcast_S_S144x128 : S_.BroadcastsInDim S144x128 (![] : Fin 0 → Fin S144x128.rank)
  reducesTo_S144x128_S_d0_1 : S144x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S100000 : S_.BroadcastsInDim S100000 (![] : Fin 0 → Fin S100000.rank)
  reducesTo_S100000_S_d0 : S100000.ReducesTo [0] S_

variable [Facts]

def fn_part2 {F : FTy → Type} [FloatOps F] (main_arg4 : IVec S100000 32) (main_arg9 : FVec F S128x64 .f32) (main_arg10 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_c_16 : IVec S_ 32 := constantI S_ 32 0#32
  let main_v44 : IVec S100000 32 := broadcastInDim S100000 ![] bcast_S_S100000 main_c_16
  let main_v45 : IVec S100000 1 := cmpi .sge main_arg4 main_v44
  let main_c_17 : IVec S_ 1 := constantI S_ 1 1#1
  let main_v46 : IVec S_ 1 := (fun x v => Host.reduce IntOp.andi x v reducesTo_S100000_S_d0 h_S_) main_v45 main_c_17
  let main_v47 : IVec S_ 1 := andi main_v43 main_v46
  main_v47

def fn_part1 {F : FTy → Type} [FloatOps F] (main_arg4 : IVec S100000 32) (main_arg6 : FVec F S128 .f32) (main_arg7 : FVec F S128x128 .f32) (main_arg8 : FVec F S128 .f32) (main_arg9 : FVec F S128x64 .f32) (main_arg10 : FVec F S64 .f32) (main_v13 : IVec S_ 1) (main_v16 : IVec S144x128 1) : IVec S_ 1 :=
  let main_c_5 : IVec S_ 1 := constantI S_ 1 1#1
  let main_v17 : IVec S_ 1 := (fun x v => Host.reduce IntOp.andi x v reducesTo_S144x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg4 main_arg9 main_arg10 main_v33

def fn {F : FTy → Type} [FloatOps F] (main_arg0 : FVec F S100000x64 .f32) (main_arg1 : IVec S2x1600000 32) (main_arg2 : FVec F S1600000x48 .f32) (main_arg3 : FVec F S64x32 .f32) (main_arg4 : IVec S100000 32) (main_arg5 : FVec F S144x128 .f32) (main_arg6 : FVec F S128 .f32) (main_arg7 : FVec F S128x128 .f32) (main_arg8 : FVec F S128 .f32) (main_arg9 : FVec F S128x64 .f32) (main_arg10 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x48 .f32 := Host.absf main_arg2
  let main_cst_0 : FVec F S_ .f32 := constant S_ .f32 0x7F800000#32
  let main_v5 : FVec F S1600000x48 .f32 := broadcastInDim S1600000x48 ![] bcast_S_S1600000x48 main_cst_0
  let main_v6 : IVec S1600000x48 1 := cmpf .olt main_v4 main_v5
  let main_c_1 : IVec S_ 1 := constantI S_ 1 1#1
  let main_v7 : IVec S_ 1 := (fun x v => Host.reduce IntOp.andi x v reducesTo_S1600000x48_S_d0_1 h_S_) main_v6 main_c_1
  let main_v8 : IVec S_ 1 := andi main_v3 main_v7
  let main_v9 : FVec F S64x32 .f32 := Host.absf main_arg3
  let main_cst_2 : FVec F S_ .f32 := constant S_ .f32 0x7F800000#32
  let main_v10 : FVec F S64x32 .f32 := broadcastInDim S64x32 ![] bcast_S_S64x32 main_cst_2
  let main_v11 : IVec S64x32 1 := cmpf .olt main_v9 main_v10
  let main_c_3 : IVec S_ 1 := constantI S_ 1 1#1
  let main_v12 : IVec S_ 1 := (fun x v => Host.reduce IntOp.andi x v reducesTo_S64x32_S_d0_1 h_S_) main_v11 main_c_3
  let main_v13 : IVec S_ 1 := andi main_v8 main_v12
  let main_v14 : FVec F S144x128 .f32 := Host.absf main_arg5
  let main_cst_4 : FVec F S_ .f32 := constant S_ .f32 0x7F800000#32
  let main_v15 : FVec F S144x128 .f32 := broadcastInDim S144x128 ![] bcast_S_S144x128 main_cst_4
  let main_v16 : IVec S144x128 1 := cmpf .olt main_v14 main_v15
  fn_part1 (F := F) main_arg4 main_arg6 main_arg7 main_arg8 main_arg9 main_arg10 main_v13 main_v16
-- ==== Kernel.lean ====
abbrev S100000x64 : Shape := ⟨2, ![100000, 64]⟩
abbrev S2x1600000 : Shape := ⟨2, ![2, 1600000]⟩
abbrev S1600000x48 : Shape := ⟨2, ![1600000, 48]⟩
abbrev S64x32 : Shape := ⟨2, ![64, 32]⟩
abbrev S100000 : Shape := ⟨1, ![100000]⟩
abbrev S144x128 : Shape := ⟨2, ![144, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000x48 : Shape := ⟨2, ![100000, 48]⟩
abbrev S1600000x1 : Shape := ⟨2, ![1600000, 1]⟩
abbrev S100000x1 : Shape := ⟨2, ![100000, 1]⟩
abbrev S64x128 : Shape := ⟨2, ![64, 128]⟩
abbrev S48x128 : Shape := ⟨2, ![48, 128]⟩
abbrev S32x128 : Shape := ⟨2, ![32, 128]⟩
abbrev S2000x64 : Shape := ⟨2, ![2000, 64]⟩
abbrev S2000x48 : Shape := ⟨2, ![2000, 48]⟩
abbrev S2000x1 : Shape := ⟨2, ![2000, 1]⟩
abbrev S2000x32 : Shape := ⟨2, ![2000, 32]⟩
abbrev S2000x128 : Shape := ⟨2, ![2000, 128]⟩
abbrev S1x128 : Shape := ⟨2, ![1, 128]⟩
abbrev S1x64 : Shape := ⟨2, ![1, 64]⟩

abbrev nBuf : Space → Nat
  | .hbm => 37
  | .vmem => 19
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x48, .f32⟩
  | .hbm, ⟨3, _⟩ => ⟨S64x32, .f32⟩
  | .hbm, ⟨4, _⟩ => ⟨S100000, .i32⟩
  | .hbm, ⟨5, _⟩ => ⟨S144x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S100000x48, .f32⟩
  | .hbm, ⟨15, _⟩ => ⟨S1600000x1, .i32⟩
  | .hbm, ⟨16, _⟩ => ⟨S100000x48, .f32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S100000x1, .f32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S100000, .i32⟩
  | .hbm, ⟨28, _⟩ => ⟨S100000, .i32⟩
  | .hbm, ⟨29, _⟩ => ⟨S_, .i32⟩
  | .hbm, ⟨30, _⟩ => ⟨S100000, .i32⟩
  | .hbm, ⟨31, _⟩ => ⟨S100000, .i32⟩
  | .hbm, ⟨32, _⟩ => ⟨S100000x1, .i32⟩
  | .hbm, ⟨33, _⟩ => ⟨S64x128, .f32⟩
  | .hbm, ⟨34, _⟩ => ⟨S48x128, .f32⟩
  | .hbm, ⟨35, _⟩ => ⟨S32x128, .f32⟩
  | .hbm, ⟨36, _⟩ => ⟨S100000x64, .f32⟩
  | .local _ .vmem, ⟨0, _⟩ => ⟨S2000x64, .f32⟩
  | .local _ .vmem, ⟨1, _⟩ => ⟨S2000x64, .f32⟩
  | .local _ .vmem, ⟨2, _⟩ => ⟨S2000x48, .f32⟩
  | .local _ .vmem, ⟨3, _⟩ => ⟨S2000x48, .f32⟩
  | .local _ .vmem, ⟨4, _⟩ => ⟨S2000x1, .f32⟩
  | .local _ .vmem, ⟨5, _⟩ => ⟨S2000x1, .f32⟩
  | .local _ .vmem, ⟨6, _⟩ => ⟨S2000x1, .i32⟩
  | .local _ .vmem, ⟨7, _⟩ => ⟨S2000x1, .i32⟩
  | .local _ .vmem, ⟨8, _⟩ => ⟨S64x32, .f32⟩
  | .local _ .vmem, ⟨9, _⟩ => ⟨S64x128, .f32⟩
  | .local _ .vmem, ⟨10, _⟩ => ⟨S48x128, .f32⟩
  | .local _ .vmem, ⟨11, _⟩ => ⟨S32x128, .f32⟩
  | .local _ .vmem, ⟨12, _⟩ => ⟨S128, .f32⟩
  | .local _ .vmem, ⟨13, _⟩ => ⟨S128x128, .f32⟩
  | .local _ .vmem, ⟨14, _⟩ => ⟨S128, .f32⟩
  | .local _ .vmem, ⟨15, _⟩ => ⟨S128x64, .f32⟩
  | .local _ .vmem, ⟨16, _⟩ => ⟨S64, .f32⟩
  | .local _ .vmem, ⟨17, _⟩ => ⟨S2000x64, .f32⟩
  | .local _ .vmem, ⟨18, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_c_2 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S48x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2000x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  slices_S2x1600000_S1x1600000_0_0 : S2x1600000.Slices ![0, 0] S1x1600000
  shapeCasts_S1x1600000_S1600000 : S1x1600000.ShapeCasts S1600000
  bcast_S_S100000x48 : S_.BroadcastsInDim S100000x48 (![] : Fin 0 → Fin S100000x48.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S100000 : S_.BroadcastsInDim S100000 (![] : Fin 0 → Fin S100000.rank)
  shapeCasts_S100000_S100000x1 : S100000.ShapeCasts S100000x1
  slices_S144x128_S64x128_0_0 : S144x128.Slices ![0, 0] S64x128
  slices_S144x128_S48x128_64_0 : S144x128.Slices ![64, 0] S48x128
  slices_S144x128_S32x128_112_0 : S144x128.Slices ![112, 0] S32x128
  inb_S2000x48_S2000x48_0_0 : ∀ a, (![0, 0] : Fin 2 → Nat) a + S2000x48.size a ≤ S2000x48.size a
  h_S2000x48 : 0 < S2000x48.numel
  shapeCasts_S2000x48_S2000x48 : S2000x48.ShapeCasts S2000x48
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x48 : S2000x1.Broadcasts S2000x48
  iota_S2000x64_d1_w32 : S2000x64.Iotas .tc 32 [1]
  broadcasts_S2000x1_S2000x64 : S2000x1.Broadcasts S2000x64
  natLt_1_32 : 1 < 32
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  inb_S2000x64_S2000x64_0_0 : ∀ a, (![0, 0] : Fin 2 → Nat) a + S2000x64.size a ≤ S2000x64.size a
  h_S2000x64 : 0 < S2000x64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S48x128_S48x128_0_0 : ∀ a, (![0, 0] : Fin 2 → Nat) a + S48x128.size a ≤ S48x128.size a
  h_S48x128 : 0 < S48x128.numel
  shapeCasts_S48x128_S48x128 : S48x128.ShapeCasts S48x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  scatter_S100000x48_S1600000x1_S1600000x48_1_0_0_1_wf : ScatterDims.WF S100000x48 S1600000x1 S1600000x48 [1] [0] [0] 1
  scatter_S100000_S1600000x1_S1600000_n_0_0_1_wf : ScatterDims.WF S100000 S1600000x1 S1600000 [] [0] [0] 1
  dot_S2000x64_S64x32_S2000x32_1_0_0_1_n_n_wf : DotDims.WF S2000x64 S64x32 S2000x32 [1] [0] [0] [1] [] []
  dot_S2000x64_S64x128_S2000x128_1_0_0_1_n_n_wf : DotDims.WF S2000x64 S64x128 S2000x128 [1] [0] [0] [1] [] []
  dot_S2000x48_S48x128_S2000x128_1_0_0_1_n_n_wf : DotDims.WF S2000x48 S48x128 S2000x128 [1] [0] [0] [1] [] []
  dot_S2000x32_S32x128_S2000x128_1_0_0_1_n_n_wf : DotDims.WF S2000x32 S32x128 S2000x128 [1] [0] [0] [1] [] []
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x48.size a ≤ S100000x48.size a
  hwx0_1 : ∀ i : grid0.Coords, EltTy.bits .f32 = 32 ∨ (Rect.block (s := S100000x48) S2000x48.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S100000x1.size a
  hwx0_3 : ∀ i : grid0.Coords, EltTy.bits .i32 = 32 ∨ (Rect.block (s := S100000x1) S2000x1.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x32.size a ≤ S64x32.size a
  hwx0_4 : ∀ i : grid0.Coords, EltTy.bits .f32 = 32 ∨ (Rect.block (s := S64x32) S64x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S48x128.size a ≤ S48x128.size a
  hwx0_6 : ∀ i : grid0.Coords, EltTy.bits .f32 = 32 ∨ (Rect.block (s := S48x128) S48x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x128.size a ≤ S32x128.size a
  hwx0_7 : ∀ i : grid0.Coords, EltTy.bits .f32 = 32 ∨ (Rect.block (s := S32x128) S32x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x64.size a ≤ S128x64.size a
  hwx0_11 : ∀ i : grid0.Coords, EltTy.bits .f32 = 32 ∨ (Rect.block (s := S128x64) S128x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64.size a ≤ S64.size a
  hwx0_12 : ∀ i : grid0.Coords, EltTy.bits .f32 = 32 ∨ (Rect.block (s := S64) S64.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2000x64.size a ≤ S100000x64.size a
  hwx0_13 : ∀ i : grid0.Coords, EltTy.bits .f32 = 32 ∨ (Rect.block (s := S100000x64) S2000x64.size (cc0_transform_13 i) (hinb0_13 i)).WholeWords (EltTy.packing .f32)

variable [Facts₀]

def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x48_S48x128_S2000x128_1_0_0_1_n_n : DotDims S2000x48 S48x128 S2000x128 where
  lhsContracting := [1]
  rhsContracting := [0]
  lhsNonContracting := [0]
  rhsNonContracting := [1]
  lhsBatch := []
  rhsBatch := []
  wf := dot_S2000x48_S48x128_S2000x128_1_0_0_1_n_n_wf
def dot_S2000x32_S32x128_S2000x128_1_0_0_1_n_n : DotDims S2000x32 S32x128 S2000x128 where
  lhsContracting := [1]
  rhsContracting := [0]
  lhsNonContracting := [0]
  rhsNonContracting := [1]
  lhsBatch := []
  rhsBatch := []
  wf := dot_S2000x32_S32x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2000x48.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S48x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S32x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg9) S128x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg10) S64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v15) S2000x64.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000x48 : Shape := ⟨2, ![1600000, 48]⟩
abbrev S64x32 : Shape := ⟨2, ![64, 32]⟩
abbrev S100000 : Shape := ⟨1, ![100000]⟩
abbrev S144x128 : Shape := ⟨2, ![144, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000x48 : Shape := ⟨2, ![100000, 48]⟩
abbrev S1600000x1 : Shape := ⟨2, ![1600000, 1]⟩
abbrev S100000x1 : Shape := ⟨2, ![100000, 1]⟩
abbrev S100000x32 : Shape := ⟨2, ![100000, 32]⟩
abbrev S100000x144 : Shape := ⟨2, ![100000, 144]⟩
abbrev S100000x128 : Shape := ⟨2, ![100000, 128]⟩
abbrev S1x128 : Shape := ⟨2, ![1, 128]⟩
abbrev S1x64 : Shape := ⟨2, ![1, 64]⟩

abbrev nBuf : Space → Nat
  | .hbm => 57
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x48, .f32⟩
  | .hbm, ⟨3, _⟩ => ⟨S64x32, .f32⟩
  | .hbm, ⟨4, _⟩ => ⟨S100000, .i32⟩
  | .hbm, ⟨5, _⟩ => ⟨S144x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S100000x48, .f32⟩
  | .hbm, ⟨15, _⟩ => ⟨S1600000x1, .i32⟩
  | .hbm, ⟨16, _⟩ => ⟨S100000x48, .f32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S100000x48, .f32⟩
  | .hbm, ⟨28, _⟩ => ⟨S100000x48, .f32⟩
  | .hbm, ⟨29, _⟩ => ⟨S_, .i32⟩
  | .hbm, ⟨30, _⟩ => ⟨S100000, .i32⟩
  | .hbm, ⟨31, _⟩ => ⟨S100000, .i1⟩
  | .hbm, ⟨32, _⟩ => ⟨S_, .i32⟩
  | .hbm, ⟨33, _⟩ => ⟨S100000, .i32⟩
  | .hbm, ⟨34, _⟩ => ⟨S100000, .i32⟩
  | .hbm, ⟨35, _⟩ => ⟨S100000, .i32⟩
  | .hbm, ⟨36, _⟩ => ⟨S100000x1, .i32⟩
  | .hbm, ⟨37, _⟩ => ⟨S100000x32, .f32⟩
  | .hbm, ⟨38, _⟩ => ⟨S100000x144, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S100000x128, .f32⟩
  | .hbm, ⟨50, _⟩ => ⟨S_, .f32⟩
  | .hbm, ⟨51, _⟩ => ⟨S100000x128, .f32⟩
  | .hbm, ⟨52, _⟩ => ⟨S100000x128, .f32⟩
  | .hbm, ⟨53, _⟩ => ⟨S100000x64, .f32⟩
  | .hbm, ⟨54, _⟩ => ⟨S1x64, .f32⟩
  | .hbm, ⟨55, _⟩ => ⟨S100000x64, .f32⟩
  | .hbm, ⟨56, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_call0_cst : Ref sig .tc := ⟨.hbm, 43, rfl⟩
abbrev main_call0_v0 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call1_cst : Ref sig .tc := ⟨.hbm, 50, rfl⟩
abbrev main_call1_v0 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  bcast_S_S100000x48 : S_.BroadcastsInDim S100000x48 (![] : Fin 0 → Fin S100000x48.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x48_0_1 : S100000x1.BroadcastsInDim S100000x48 (![0, 1] : Fin 2 → Fin S100000x48.rank)
  concatenates_S100000x64_S100000x48_S100000x32_S100000x144_d1 : Shape.Concatenates [S100000x64, S100000x48, S100000x32] S100000x144 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000x48_S1600000x1_S1600000x48_1_0_0_1_wf : ScatterDims.WF S100000x48 S1600000x1 S1600000x48 [1] [0] [0] 1
  scatter_S100000_S1600000x1_S1600000_n_0_0_1_wf : ScatterDims.WF S100000 S1600000x1 S1600000 [] [0] [0] 1
  gather_S64x32_S100000x1_S100000x32_1_0_n_n_0_1_132_wf : GatherDims.WF S64x32 S100000x1 S100000x32 [1] [0] [] [0] [] 1 ![1, 32]
  dot_S100000x144_S144x128_S100000x128_1_0_0_1_n_n_wf : DotDims.WF S100000x144 S144x128 S100000x128 [1] [0] [0] [1] [] []
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S64x32_S100000x1_S100000x32_1_0_n_n_0_1_132 : GatherDims S64x32 S100000x1 S100000x32 where
  offsetDims := [1]
  collapsedSliceDims := [0]
  operandBatchingDims := []
  startIndicesBatchingDims := []
  startIndexMap := [0]
  indexVectorDim := 1
  sliceSizes := ![1, 32]
  wf := gather_S64x32_S100000x1_S100000x32_1_0_n_n_0_1_132_wf
def dot_S100000x144_S144x128_S100000x128_1_0_0_1_n_n : DotDims S100000x144 S144x128 S100000x128 where
  lhsContracting := [1]
  rhsContracting := [0]
  lhsNonContracting := [0]
  rhsNonContracting := [1]
  lhsBatch := []
  rhsBatch := []
  wf := dot_S100000x144_S144x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelIdx.lean ====
/-
  Where each window of the kernel's one launch sits at each of the 50 grid points.
  Point t works on nodes 2000 t, …, 2000 t + 1999: the windows of the node features, of the per-node sums, of the edge
  count column, of the clamped graph index column and of the output sit at block (t, 0); every other window is read
  whole, at block 0. Decided once over the 50 points.
-/
import proofs.«415170_j82343112999493_3_alg».proof.Proof.Gen.KernelIdeal.Value
import Idealize.ShloMosaic.Lib.Tactic
import Idealize.ShloMosaic.Lib.ValueIdx

set_option maxRecDepth 16384

noncomputable section

namespace Cert.KernelIdeal.KValue

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-- Node 2000 t + p: row p of point t's blocks. -/
def rowOf (t : Fin cfg0.N) (p : Fin 2000) : Fin 100000 :=
  ⟨2000 * t.val + p.val, by have h : cfg0.N = 50 := N_0; have := t.isLt; have := p.isLt; omega⟩

/-- The row-blocked windows (node features, sums, count column, graph index column, output) sit at block (t, 0). -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_13.index t (0 : Fin 2) = t.val ∧ win0_13.index t (1 : Fin 2) = 0) :=
  (by decide +kernel : ∀ t : Fin grid0.N, _)

/-- The windows read whole sit at block 0 at every point. -/
theorem idx_whole : ∀ t : Fin cfg0.N,
    (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ win0_8.index t (0 : Fin 1) = 0
    ∧ (win0_9.index t (0 : Fin 2) = 0 ∧ win0_9.index t (1 : Fin 2) = 0)
    ∧ win0_10.index t (0 : Fin 1) = 0
    ∧ (win0_11.index t (0 : Fin 2) = 0 ∧ win0_11.index t (1 : Fin 2) = 0)
    ∧ win0_12.index t (0 : Fin 1) = 0 :=
  (by decide +kernel : ∀ t : Fin grid0.N, _)

end Cert.KernelIdeal.KValue

end
-- ==== Proof.KernelHost.lean ====
/-
  What the region's operand arrays hold when the kernel is launched.
  Before the launch the program computes, from the arguments: the per-node sum of edge attributes and the per-node
  edge count (two accumulating scatters over the edges' source nodes, kept here as whole terms), the count viewed as
  a column, the graph index of every node clamped into [0, 63] and viewed as a column, and the three groups of rows
  of the first weight matrix. Each is read here as a term of the arguments, and the column views and row groups at
  an entry.
-/
import proofs.«415170_j82343112999493_3_alg».proof.Proof.Gen.KernelIdeal.Frame
import Idealize.ShloMosaic.Lib.ValueLayout
import Idealize.ShloMosaic.Lib.Pipeline.Value
import Idealize.ShloMosaic.Lib.StableHlo.Run

set_option maxRecDepth 16384

noncomputable section

namespace Cert.KernelIdeal.HostPrefix

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]

/-- The source node of every edge, one per row of a column. -/
def srcCol (x1 : IVec S2x1600000 32) : IVec S1600000x1 32 :=
  broadcastInDim S1600000x1 ![0] bcast_S1600000_S1600000x1_0
    (shapeCast S1600000 (extractStridedSlice S1x1600000 ![0, 0] x1 slices_S2x1600000_S1x1600000_0_0) shapeCasts_S1x1600000_S1600000)

/-- The per-node sum of edge attributes. -/
def sumsK (x1 : IVec S2x1600000 32) (x2 : FVec F S1600000x48 .f32) : FVec F S100000x48 .f32 :=
  Host.scatterAdd scatter_S100000x48_S1600000x1_S1600000x48_1_0_0_1
    (broadcastInDim S100000x48 ![] bcast_S_S100000x48 (constant (F := F) S_ .f32 0x00000000#32)) (srcCol x1) x2

/-- The per-node edge count. -/
def cntK (x1 : IVec S2x1600000 32) : FVec F S100000 .f32 :=
  Host.scatterAdd scatter_S100000_S1600000x1_S1600000_n_0_0_1
    (broadcastInDim S100000 ![] bcast_S_S100000 (constant (F := F) S_ .f32 0x00000000#32)) (srcCol x1)
    (broadcastInDim S1600000 ![] bcast_S_S1600000 (constant (F := F) S_ .f32 0x3F800000#32))

/-- Every node's graph index clamped into [0, 63]. -/
def clipK (x4 : IVec S100000 32) : IVec S100000 32 :=
  minsi (broadcastInDim S100000 ![] bcast_S_S100000 (constantI S_ 32 63#32))
    (maxsi (broadcastInDim S100000 ![] bcast_S_S100000 (constantI S_ 32 0#32)) x4)

variable (m : (ℓ : Loc nD τ sig) → Buf (Elt F) ℓ)

theorem V_sums (c : Dev nD) :
    (V m c main_v4 : S100000x48.Idx → Elt F .f32)
      = sumsK (m ((c : Thread nD τ).loc main_arg1)) (m ((c : Thread nD τ).loc main_arg2)) := by
  dsimp only [V]
  simp only [hostOps0, hostOps0_1, hostOps0_2, List.flatten_cons, List.flatten_nil, List.append_nil, List.cons_append,
    List.nil_append]
  after_results
  rfl

theorem V_cnt (c : Dev nD) :
    (V m c main_v9 : S100000x1.Idx → Elt F .f32)
      = shapeCast S100000x1 (cntK (F := F) (m ((c : Thread nD τ).loc main_arg1))) shapeCasts_S100000_S100000x1 := by
  dsimp only [V]
  simp only [hostOps0, hostOps0_1, hostOps0_2, List.flatten_cons, List.flatten_nil, List.append_nil, List.cons_append,
    List.nil_append]
  after_results
  rfl

theorem V_batch (c : Dev nD) :
    (V m c main_v11 : S100000x1.Idx → BitVec 32)
      = shapeCast S100000x1 (clipK (m ((c : Thread nD τ).loc main_arg4))) shapeCasts_S100000_S100000x1 := by
  dsimp only [V]
  simp only [hostOps0, hostOps0_1, hostOps0_2, List.flatten_cons, List.flatten_nil, List.append_nil, List.cons_append,
    List.nil_append]
  after_results
  rfl

theorem V_w1x (c : Dev nD) :
    (V m c main_v12 : S64x128.Idx → Elt F .f32)
      = extractStridedSlice S64x128 ![0, 0] (m ((c : Thread nD τ).loc main_arg5)) slices_S144x128_S64x128_0_0 := by
  dsimp only [V]
  simp only [hostOps0, hostOps0_1, hostOps0_2, List.flatten_cons, List.flatten_nil, List.append_nil, List.cons_append,
    List.nil_append]
  after_results

theorem V_w1e (c : Dev nD) :
    (V m c main_v13 : S48x128.Idx → Elt F .f32)
      = extractStridedSlice S48x128 ![64, 0] (m ((c : Thread nD τ).loc main_arg5)) slices_S144x128_S48x128_64_0 := by
  dsimp only [V]
  simp only [hostOps0, hostOps0_1, hostOps0_2, List.flatten_cons, List.flatten_nil, List.append_nil, List.cons_append,
    List.nil_append]
  after_results

theorem V_w1u (c : Dev nD) :
    (V m c main_v14 : S32x128.Idx → Elt F .f32)
      = extractStridedSlice S32x128 ![112, 0] (m ((c : Thread nD τ).loc main_arg5)) slices_S144x128_S32x128_112_0 := by
  dsimp only [V]
  simp only [hostOps0, hostOps0_1, hostOps0_2, List.flatten_cons, List.flatten_nil, List.append_nil, List.cons_append,
    List.nil_append]
  after_results

/-! ## The column views and the clamp at an entry -/

/-- An [n] array viewed as an [n, 1] column reads, at (i, 0), the array at i. -/
theorem col_apply {α : Type} {n : ℕ} (x : (⟨1, ![n]⟩ : Shape).Idx → α) (h : (⟨1, ![n]⟩ : Shape).ShapeCasts ⟨2, ![n, 1]⟩)
    (i : Fin n) : shapeCast ⟨2, ![n, 1]⟩ x h (ix2 i (0 : Fin 1)) = x (ix1 i) :=
  shapeCast_apply x h _ _ (by
    rw [Shape.rowMajor_val_two, Shape.rowMajor_val_one]
    show i.val = i.val * 1 + 0
    omega)

/-- The clamp at node i: the smaller of 63 and the larger of 0 and the index, both compared signed. -/
theorem clipK_apply (x4 : IVec S100000 32) (i : Fin 100000) :
    clipK x4 (ix1 i) = IntOp.minsi 63#32 (IntOp.maxsi 0#32 (x4 (ix1 i))) := rfl

end Cert.KernelIdeal.HostPrefix

end
-- ==== Proof.Clamp.lean ====
/-
  The two ways the programs turn a node's graph index into a row of the 64-row graph table.
  One clamps the index, compared signed, into [0, 63]. The other wraps a negative index by adding 64 and then reads
  the result signed and clamped into [0, 63]. For an index that is not negative the wrap does nothing and both choose
  row min(index, 63); for indices -63, …, -1 they choose different rows, which is why the claim carries the
  hypothesis that graph indices are not negative.
-/
import Idealize.ShloMosaic.PureOps.Ideal
import Idealize.ShloMosaic.Lib.ValueIdx
import Idealize.ShloMosaic.Lib.Affine

noncomputable section

namespace Cert.GraphRow

open Idealize.ShloMosaic Idealize.ShloMosaic.ValueIdx

/-- The index clamped, signed, into [0, 63]. -/
abbrev clip (b : BitVec 32) : BitVec 32 := IntOp.minsi 63#32 (IntOp.maxsi 0#32 b)

theorem toInt_zero32 : (0#32 : BitVec 32).toInt = 0 := by decide
theorem toInt_63 : (63#32 : BitVec 32).toInt = 63 := by decide

/-- Read signed, the clamp is min 63 (max 0 index). -/
theorem clip_toInt (b : BitVec 32) : (clip b).toInt = min 63 (max 0 b.toInt) := by
  have hmax : (IntOp.maxsi 0#32 b).toInt = max 0 b.toInt := by
    unfold IntOp.maxsi
    split <;> rename_i hc <;> simp only [BitVec.slt, toInt_zero32, decide_eq_true_eq] at hc
    · rw [toInt_zero32]; omega
    · omega
  show (IntOp.minsi 63#32 (IntOp.maxsi 0#32 b)).toInt = _
  unfold IntOp.minsi
  split <;> rename_i hc <;> simp only [BitVec.slt, toInt_63, decide_eq_true_eq] at hc
  · rw [toInt_63]; omega
  · omega

/-- A word whose signed reading lies in [0, 63] has that reading as its value. -/
theorem toNat_of_toInt_small (c : BitVec 32) (h0 : 0 ≤ c.toInt) (h1 : c.toInt ≤ 63) : (c.toNat : Int) = c.toInt := by
  have hc := BitVec.toInt_eq_toNat_cond c
  have hlt := c.isLt
  split at hc <;> omega

/-- The clamped index is a row of the table. -/
theorem clip_lt (b : BitVec 32) : (clip b).toNat < 64 := by
  have h := clip_toInt b
  have hn := toNat_of_toInt_small (clip b) (by omega) (by omega)
  omega

/-- For an index that is not negative, the clamp chooses row min(index, 63). -/
theorem clip_toNat_of_nonneg (b : BitVec 32) (hb : 0 ≤ b.toInt) : (clip b).toNat = min b.toInt.toNat 63 := by
  have h := clip_toInt b
  have hn := toNat_of_toInt_small (clip b) (by omega) (by omega)
  omega

/-- "index ≥ 0, compared signed" as a fact about the signed reading. -/
theorem nonneg_of_sge (b : BitVec 32) (h : IntOp.cmpi .sge b 0#32 = 1#1) : 0 ≤ b.toInt := by
  have h2 := IntOp.cmpi_sge.1 h
  rw [toInt_zero32] at h2
  exact h2

/-- The wrap of a negative index leaves an index that is not negative alone. -/
theorem wrap_of_nonneg (b : BitVec 32) (hb : 0 ≤ b.toInt) :
    Scalar.select (IntOp.cmpi .slt b 0#32) (IntOp.addi b 64#32) b = b := by
  have hc : IntOp.cmpi .slt b 0#32 = 0#1 := by
    unfold IntOp.cmpi
    have : b.slt 0#32 = false := by
      simp only [BitVec.slt, toInt_zero32, decide_eq_false_iff_not]
      omega
    rw [this]
    rfl
  rw [hc, select_zero]

end Cert.GraphRow

end
-- ==== Proof.Spec.lean ====
/-
  The node update of a message-passing layer, as one function of one node's data.
  A node's input row is the concatenation of its own 64 features, the mean of the 48 attributes of the edges that
  start at it, and the 32 features of the graph it belongs to; three dense layers follow, the first two with a
  rectifier. Because the first layer's weight matrix acts on a concatenation, its product is the sum of three
  products, one per group of rows of the matrix: that is the only rearrangement between the two programs, and it
  uses nothing but associativity of addition on the extended reals. A graph's row is selected either by an index
  or by a sum against a 0/1 indicator of that index; the two agree because 0 * y = 0 and 1 * y = y for EVERY
  extended real y, so no finiteness is needed.
-/
import Idealize.ShloMosaic.PureOps.Ideal
import Idealize.ShloMosaic.PureOps.Ideal.Laws
import Idealize.ShloMosaic.Lib.ValueIdx
import Idealize.ShloMosaic.Lib.StableHlo.Predicate
import Mathlib.Algebra.BigOperators.Fin

noncomputable section

namespace Cert.NodeMlp

open Idealize.ShloMosaic Idealize.ShloMosaic.ValueIdx
open scoped BigOperators

/-- The float word of 1.0, the floor of an edge count. -/
abbrev oneW : EReal := Ideal.ofBits .f32 0x3F800000#32
/-- The float word of 0.0, the rectifier's threshold. -/
abbrev zeroW : EReal := Ideal.ofBits .f32 0x00000000#32

/-- The first layer at hidden unit j: the three groups of input features against the three groups of rows of the
    first weight matrix, the bias, the rectifier. -/
def hid1 (w1x : FVec Ideal ⟨2, ![64, 128]⟩ .f32) (w1e : FVec Ideal ⟨2, ![48, 128]⟩ .f32) (w1u : FVec Ideal ⟨2, ![32, 128]⟩ .f32)
    (b1 : FVec Ideal ⟨1, ![128]⟩ .f32) (xr : Fin 64 → EReal) (er : Fin 48 → EReal) (gr : Fin 32 → EReal) (j : Fin 128) : EReal :=
  max ((((∑ a : Fin 64, xr a * w1x (ix2 a j)) + ∑ a : Fin 48, er a * w1e (ix2 a j)) + ∑ a : Fin 32, gr a * w1u (ix2 a j))
    + b1 (ix1 j)) zeroW

/-- The second layer at hidden unit k. -/
def hid2 (w2 : FVec Ideal ⟨2, ![128, 128]⟩ .f32) (b2 : FVec Ideal ⟨1, ![128]⟩ .f32) (h : Fin 128 → EReal) (k : Fin 128) : EReal :=
  max ((∑ j : Fin 128, h j * w2 (ix2 j k)) + b2 (ix1 k)) zeroW

/-- The output layer at feature q. -/
def outp (w3 : FVec Ideal ⟨2, ![128, 64]⟩ .f32) (b3 : FVec Ideal ⟨1, ![64]⟩ .f32) (h : Fin 128 → EReal) (q : Fin 64) : EReal :=
  (∑ k : Fin 128, h k * w3 (ix2 k q)) + b3 (ix1 q)

/-- One node's output feature q from its three groups of input features. -/
def node (w1x : FVec Ideal ⟨2, ![64, 128]⟩ .f32) (w1e : FVec Ideal ⟨2, ![48, 128]⟩ .f32) (w1u : FVec Ideal ⟨2, ![32, 128]⟩ .f32)
    (b1 : FVec Ideal ⟨1, ![128]⟩ .f32) (w2 : FVec Ideal ⟨2, ![128, 128]⟩ .f32) (b2 : FVec Ideal ⟨1, ![128]⟩ .f32)
    (w3 : FVec Ideal ⟨2, ![128, 64]⟩ .f32) (b3 : FVec Ideal ⟨1, ![64]⟩ .f32)
    (xr : Fin 64 → EReal) (er : Fin 48 → EReal) (gr : Fin 32 → EReal) (q : Fin 64) : EReal :=
  outp w3 b3 (hid2 w2 b2 (hid1 w1x w1e w1u b1 xr er gr)) q

/-- Rows off, off + 1, …, off + n - 1 of the first weight matrix. -/
def rows (W1 : FVec Ideal ⟨2, ![144, 128]⟩ .f32) (off n : Nat) (h : off + n ≤ 144) : FVec Ideal ⟨2, ![n, 128]⟩ .f32 :=
  fun i => W1 (ix2 (⟨off + (i 0).val, by have := idx2_lt0 i; omega⟩ : Fin 144) (⟨(i 1).val, idx2_lt1 i⟩ : Fin 128))

theorem rows_apply (W1 : FVec Ideal ⟨2, ![144, 128]⟩ .f32) (off n : Nat) (h : off + n ≤ 144) (a : Fin n) (j : Fin 128) :
    rows W1 off n h (ix2 a j) = W1 (ix2 (⟨off + a.val, by have := a.isLt; omega⟩ : Fin 144) j) := rfl

/-- THE WHOLE LAYER at node p, feature q: sums and cnt are the per-node sum of edge attributes and edge count, row p
    the graph of node p. -/
def nodeAt (x : FVec Ideal ⟨2, ![100000, 64]⟩ .f32) (sums : FVec Ideal ⟨2, ![100000, 48]⟩ .f32) (cnt : FVec Ideal ⟨1, ![100000]⟩ .f32)
    (u : FVec Ideal ⟨2, ![64, 32]⟩ .f32) (W1 : FVec Ideal ⟨2, ![144, 128]⟩ .f32) (b1 : FVec Ideal ⟨1, ![128]⟩ .f32)
    (W2 : FVec Ideal ⟨2, ![128, 128]⟩ .f32) (b2 : FVec Ideal ⟨1, ![128]⟩ .f32)
    (W3 : FVec Ideal ⟨2, ![128, 64]⟩ .f32) (b3 : FVec Ideal ⟨1, ![64]⟩ .f32)
    (row : Fin 100000 → Fin 64) (p : Fin 100000) (q : Fin 64) : EReal :=
  node (rows W1 0 64 (by omega)) (rows W1 64 48 (by omega)) (rows W1 112 32 (by omega)) b1 W2 b2 W3 b3
    (fun a => x (ix2 p a)) (fun a => Ideal.div (sums (ix2 p a)) (max (cnt (ix1 p)) oneW)) (fun a => u (ix2 (row p) a)) q

/-- The layer's result array. -/
def layer (x : FVec Ideal ⟨2, ![100000, 64]⟩ .f32) (sums : FVec Ideal ⟨2, ![100000, 48]⟩ .f32) (cnt : FVec Ideal ⟨1, ![100000]⟩ .f32)
    (u : FVec Ideal ⟨2, ![64, 32]⟩ .f32) (W1 : FVec Ideal ⟨2, ![144, 128]⟩ .f32) (b1 : FVec Ideal ⟨1, ![128]⟩ .f32)
    (W2 : FVec Ideal ⟨2, ![128, 128]⟩ .f32) (b2 : FVec Ideal ⟨1, ![128]⟩ .f32)
    (W3 : FVec Ideal ⟨2, ![128, 64]⟩ .f32) (b3 : FVec Ideal ⟨1, ![64]⟩ .f32)
    (row : Fin 100000 → Fin 64) : FVec Ideal ⟨2, ![100000, 64]⟩ .f32 :=
  fun i => nodeAt x sums cnt u W1 b1 W2 b2 W3 b3 row ⟨(i 0).val, idx2_lt0 i⟩ ⟨(i 1).val, idx2_lt1 i⟩

theorem layer_apply (x : FVec Ideal ⟨2, ![100000, 64]⟩ .f32) (sums : FVec Ideal ⟨2, ![100000, 48]⟩ .f32) (cnt : FVec Ideal ⟨1, ![100000]⟩ .f32)
    (u : FVec Ideal ⟨2, ![64, 32]⟩ .f32) (W1 : FVec Ideal ⟨2, ![144, 128]⟩ .f32) (b1 : FVec Ideal ⟨1, ![128]⟩ .f32)
    (W2 : FVec Ideal ⟨2, ![128, 128]⟩ .f32) (b2 : FVec Ideal ⟨1, ![128]⟩ .f32)
    (W3 : FVec Ideal ⟨2, ![128, 64]⟩ .f32) (b3 : FVec Ideal ⟨1, ![64]⟩ .f32)
    (row : Fin 100000 → Fin 64) (p : Fin 100000) (q : Fin 64) :
    layer x sums cnt u W1 b1 W2 b2 W3 b3 row (ix2 p q) = nodeAt x sums cnt u W1 b1 W2 b2 W3 b3 row p q := rfl

/-! ## Selecting a row by a 0/1 indicator -/

/-- The indicator of "graph g is the node's graph b", as the float the comparison's bit converts to. -/
def hot (b : BitVec 32) (g : Fin 64) : EReal :=
  ((((IntOp.cmpi .eq (BitVec.ofNat 32 g.val) b).setWidth 32).toInt : ℝ) : EReal)

theorem hot_self (b : BitVec 32) (g : Fin 64) (h : BitVec.ofNat 32 g.val = b) : hot b g = 1 := by
  unfold hot
  rw [StableHlo.Predicate.cmpi_eq_iff.mpr h]
  have e : ((1#1 : BitVec 1).setWidth 32).toInt = 1 := by decide
  rw [e]
  norm_num

theorem hot_ne (b : BitVec 32) (g : Fin 64) (h : BitVec.ofNat 32 g.val ≠ b) : hot b g = 0 := by
  unfold hot
  rw [eq_zero_of_ne_one (fun e => h (StableHlo.Predicate.cmpi_eq_iff.mp e))]
  have e : ((0#1 : BitVec 1).setWidth 32).toInt = 0 := by decide
  rw [e]
  norm_num

/-- A sum against the indicator of b selects the term at b: the other terms are 0 * y = 0, which holds for every
    extended real y. -/
theorem sum_hot (b : BitVec 32) (hb : b.toNat < 64) (f : Fin 64 → EReal) :
    ∑ g : Fin 64, hot b g * f g = f ⟨b.toNat, hb⟩ := by
  rw [Finset.sum_eq_single (⟨b.toNat, hb⟩ : Fin 64)]
  · rw [hot_self b _ (BitVec.eq_of_toNat_eq (by rw [BitVec.toNat_ofNat]; exact Nat.mod_eq_of_lt (by omega))), one_mul]
  · intro g _ hg
    rw [hot_ne b g (fun e => hg (Fin.ext (by
      have h1 := congrArg BitVec.toNat e
      rw [BitVec.toNat_ofNat, Nat.mod_eq_of_lt (by have := g.isLt; omega)] at h1
      exact h1))), zero_mul]
  · intro h
    exact absurd (Finset.mem_univ _) h

/-! ## A sum over a concatenation -/

/-- A sum over 144 = 64 + 48 + 32 indices is the sum of the sums over the three ranges, in order: associativity of
    addition only. -/
theorem sum_split3 (f : Fin 144 → EReal) :
    ∑ k : Fin 144, f k
      = ((∑ a : Fin 64, f ⟨a.val, by have := a.isLt; omega⟩) + ∑ a : Fin 48, f ⟨64 + a.val, by have := a.isLt; omega⟩)
        + ∑ a : Fin 32, f ⟨112 + a.val, by have := a.isLt; omega⟩ := by
  rw [show (∑ k : Fin 144, f k) = ∑ k : Fin (112 + 32), f k from rfl, Fin.sum_univ_add]
  rw [show (∑ i : Fin 112, f (Fin.castAdd 32 i)) = ∑ i : Fin (64 + 48), f (Fin.castAdd 32 i) from rfl, Fin.sum_univ_add]
  rfl

end Cert.NodeMlp

end
-- ==== Proof.KernelBlocks.lean ====
/-
  Each window's block at a grid point, read off its array.
  A row-blocked window's block at point t, entry (p, a), is its array at (2000 t + p, a); a window read whole gives its
  array. The arrays the program computes before the launch are read through as terms of the arguments.
-/
import proofs.«415170_j82343112999493_3_alg».proof.Proof.KernelIdx
import proofs.«415170_j82343112999493_3_alg».proof.Proof.KernelHost
import proofs.«415170_j82343112999493_3_alg».proof.Proof.Clamp
import proofs.«415170_j82343112999493_3_alg».proof.Proof.Spec
import Idealize.ShloMosaic.Lib.Pipeline.Value
import Idealize.ShloMosaic.Lib.ValueLayout

set_option maxRecDepth 16384

noncomputable section

namespace Cert.KernelIdeal.KValue

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

/-! ## Where a block's entry sits in its array (index arithmetic only) -/

/-- Entry (p, a) of the node-feature block at point t is entry (2000 t + p, a) of the array. -/
theorem emb_x (t : Fin cfg0.N) (p : Fin 2000) (a : Fin 64) :
    ((cfg0.win 0).blk t).view.emb (ix2 p a) = ix2 (rowOf t p) a := by
  obtain ⟨⟨h0, h1⟩, -⟩ := idx_rows t
  funext ax; apply Fin.ext
  match ax with
  | ⟨0, _⟩ => show win0_0.index t (0 : Fin 2) * 2000 + 1 * p.val = 2000 * t.val + p.val; omega
  | ⟨1, _⟩ => show win0_0.index t (1 : Fin 2) * 64 + 1 * a.val = a.val; omega

/-- The same for the block of per-node sums. -/
theorem emb_sums (t : Fin cfg0.N) (p : Fin 2000) (a : Fin 48) :
    ((cfg0.win 1).blk t).view.emb (ix2 p a) = ix2 (rowOf t p) a := by
  obtain ⟨-, ⟨h0, h1⟩, -⟩ := idx_rows t
  funext ax; apply Fin.ext
  match ax with
  | ⟨0, _⟩ => show win0_1.index t (0 : Fin 2) * 2000 + 1 * p.val = 2000 * t.val + p.val; omega
  | ⟨1, _⟩ => show win0_1.index t (1 : Fin 2) * 48 + 1 * a.val = a.val; omega

/-- The same for the edge count column. -/
theorem emb_cnt (t : Fin cfg0.N) (p : Fin 2000) :
    ((cfg0.win 2).blk t).view.emb (ix2 p (0 : Fin 1)) = ix2 (rowOf t p) (0 : Fin 1) := by
  obtain ⟨-, -, ⟨h0, h1⟩, -⟩ := idx_rows t
  funext ax; apply Fin.ext
  match ax with
  | ⟨0, _⟩ => show win0_2.index t (0 : Fin 2) * 2000 + 1 * p.val = 2000 * t.val + p.val; omega
  | ⟨1, _⟩ => show win0_2.index t (1 : Fin 2) * 1 + 1 * 0 = 0; omega

/-- The same for the graph index column. -/
theorem emb_batch (t : Fin cfg0.N) (p : Fin 2000) :
    ((cfg0.win 3).blk t).view.emb (ix2 p (0 : Fin 1)) = ix2 (rowOf t p) (0 : Fin 1) := by
  obtain ⟨-, -, -, ⟨h0, h1⟩, -⟩ := idx_rows t
  funext ax; apply Fin.ext
  match ax with
  | ⟨0, _⟩ => show win0_3.index t (0 : Fin 2) * 2000 + 1 * p.val = 2000 * t.val + p.val; omega
  | ⟨1, _⟩ => show win0_3.index t (1 : Fin 2) * 1 + 1 * 0 = 0; omega

/-- The same for the output block. -/
theorem emb_out (t : Fin cfg0.N) (p : Fin 2000) (q : Fin 64) :
    ((cfg0.win 13).blk t).view.emb (ix2 p q) = ix2 (rowOf t p) q := by
  obtain ⟨-, -, -, -, ⟨h0, h1⟩⟩ := idx_rows t
  funext ax; apply Fin.ext
  match ax with
  | ⟨0, _⟩ => show win0_13.index t (0 : Fin 2) * 2000 + 1 * p.val = 2000 * t.val + p.val; omega
  | ⟨1, _⟩ => show win0_13.index t (1 : Fin 2) * 64 + 1 * q.val = q.val; omega

/-- A window read whole: an entry of its block is the same entry of its array. Graph table. -/
theorem emb_u (t : Fin cfg0.N) (j : S64x32.Idx) : ((cfg0.win 4).blk t).view.emb j = j := by
  obtain ⟨⟨h0, h1⟩, -⟩ := idx_whole t
  funext ax; apply Fin.ext
  match ax with
  | ⟨0, _⟩ => show win0_4.index t (0 : Fin 2) * 64 + 1 * (j 0).val = (j 0).val; omega
  | ⟨1, _⟩ => show win0_4.index t (1 : Fin 2) * 32 + 1 * (j 1).val = (j 1).val; omega

/-- First group of rows of the first weight matrix. -/
theorem emb_w1x (t : Fin cfg0.N) (j : S64x128.Idx) : ((cfg0.win 5).blk t).view.emb j = j := by
  obtain ⟨-, ⟨h0, h1⟩, -⟩ := idx_whole t
  funext ax; apply Fin.ext
  match ax with
  | ⟨0, _⟩ => show win0_5.index t (0 : Fin 2) * 64 + 1 * (j 0).val = (j 0).val; omega
  | ⟨1, _⟩ => show win0_5.index t (1 : Fin 2) * 128 + 1 * (j 1).val = (j 1).val; omega

/-- Second group of rows. -/
theorem emb_w1e (t : Fin cfg0.N) (j : S48x128.Idx) : ((cfg0.win 6).blk t).view.emb j = j := by
  obtain ⟨-, -, ⟨h0, h1⟩, -⟩ := idx_whole t
  funext ax; apply Fin.ext
  match ax with
  | ⟨0, _⟩ => show win0_6.index t (0 : Fin 2) * 48 + 1 * (j 0).val = (j 0).val; omega
  | ⟨1, _⟩ => show win0_6.index t (1 : Fin 2) * 128 + 1 * (j 1).val = (j 1).val; omega

/-- Third group of rows. -/
theorem emb_w1u (t : Fin cfg0.N) (j : S32x128.Idx) : ((cfg0.win 7).blk t).view.emb j = j := by
  obtain ⟨-, -, -, ⟨h0, h1⟩, -⟩ := idx_whole t
  funext ax; apply Fin.ext
  match ax with
  | ⟨0, _⟩ => show win0_7.index t (0 : Fin 2) * 32 + 1 * (j 0).val = (j 0).val; omega
  | ⟨1, _⟩ => show win0_7.index t (1 : Fin 2) * 128 + 1 * (j 1).val = (j 1).val; omega

/-- First bias. -/
theorem emb_b1 (t : Fin cfg0.N) (j : S128.Idx) : ((cfg0.win 8).blk t).view.emb j = j := by
  obtain ⟨-, -, -, -, h0, -⟩ := idx_whole t
  funext ax; apply Fin.ext
  match ax with
  | ⟨0, _⟩ => show win0_8.index t (0 : Fin 1) * 128 + 1 * (j 0).val = (j 0).val; omega

/-- Second weight matrix. -/
theorem emb_w2 (t : Fin cfg0.N) (j : S128x128.Idx) : ((cfg0.win 9).blk t).view.emb j = j := by
  obtain ⟨-, -, -, -, -, ⟨h0, h1⟩, -⟩ := idx_whole t
  funext ax; apply Fin.ext
  match ax with
  | ⟨0, _⟩ => show win0_9.index t (0 : Fin 2) * 128 + 1 * (j 0).val = (j 0).val; omega
  | ⟨1, _⟩ => show win0_9.index t (1 : Fin 2) * 128 + 1 * (j 1).val = (j 1).val; omega

/-- Second bias. -/
theorem emb_b2 (t : Fin cfg0.N) (j : S128.Idx) : ((cfg0.win 10).blk t).view.emb j = j := by
  obtain ⟨-, -, -, -, -, -, h0, -⟩ := idx_whole t
  funext ax; apply Fin.ext
  match ax with
  | ⟨0, _⟩ => show win0_10.index t (0 : Fin 1) * 128 + 1 * (j 0).val = (j 0).val; omega

/-- Third weight matrix. -/
theorem emb_w3 (t : Fin cfg0.N) (j : S128x64.Idx) : ((cfg0.win 11).blk t).view.emb j = j := by
  obtain ⟨-, -, -, -, -, -, -, ⟨h0, h1⟩, -⟩ := idx_whole t
  funext ax; apply Fin.ext
  match ax with
  | ⟨0, _⟩ => show win0_11.index t (0 : Fin 2) * 128 + 1 * (j 0).val = (j 0).val; omega
  | ⟨1, _⟩ => show win0_11.index t (1 : Fin 2) * 64 + 1 * (j 1).val = (j 1).val; omega

/-- Output bias. -/
theorem emb_b3 (t : Fin cfg0.N) (j : S64.Idx) : ((cfg0.win 12).blk t).view.emb j = j := by
  obtain ⟨-, -, -, -, -, -, -, -, h0⟩ := idx_whole t
  funext ax; apply Fin.ext
  match ax with
  | ⟨0, _⟩ => show win0_12.index t (0 : Fin 1) * 64 + 1 * (j 0).val = (j 0).val; omega

/-! ## Each window's block at point t, read off its array

Each block read is its array at the entry the index equation names. The two per-node sums enter only as whole terms
of the arguments. -/

/-- The node-feature block: rows 2000 t … of the node features. -/
theorem blk_x (c : Dev nD) (t : Fin cfg0.N) (p : Fin 2000) (a : Fin 64) :
    (iblk m c 0 t : Vec Ideal S2000x64 .f32) (ix2 p a)
      = ((m ((c : Thread nD τ).loc main_arg0)) : S100000x64.Idx → EReal) (ix2 (rowOf t p) a) := by
  unfold iblk
  rw [View.read_apply, cast_eq]
  rw [V_main_arg0 m c, emb_x]

/-- The sums block: rows 2000 t … of the per-node sums of edge attributes. -/
theorem blk_sums (c : Dev nD) (t : Fin cfg0.N) (p : Fin 2000) (a : Fin 48) :
    (iblk m c 1 t : Vec Ideal S2000x48 .f32) (ix2 p a)
      = HostPrefix.sumsK (F := Ideal) (m ((c : Thread nD τ).loc main_arg1)) (m ((c : Thread nD τ).loc main_arg2)) (ix2 (rowOf t p) a) := by
  unfold iblk
  rw [View.read_apply, cast_eq]
  rw [HostPrefix.V_sums m c, emb_sums]

/-- The count column's block: the per-node edge counts of nodes 2000 t …. -/
theorem blk_cnt (c : Dev nD) (t : Fin cfg0.N) (p : Fin 2000) :
    (iblk m c 2 t : Vec Ideal S2000x1 .f32) (ix2 p (0 : Fin 1))
      = HostPrefix.cntK (F := Ideal) (m ((c : Thread nD τ).loc main_arg1)) (ix1 (rowOf t p)) := by
  unfold iblk
  rw [View.read_apply, cast_eq]
  rw [HostPrefix.V_cnt m c, emb_cnt]
  exact HostPrefix.col_apply (HostPrefix.cntK (F := Ideal) (m ((c : Thread nD τ).loc main_arg1))) shapeCasts_S100000_S100000x1 (rowOf t p)

/-- The graph index column's block: the clamped graph indices of nodes 2000 t …. -/
theorem blk_batch (c : Dev nD) (t : Fin cfg0.N) (p : Fin 2000) :
    (iblk m c 3 t : Vec Ideal S2000x1 .i32) (ix2 p (0 : Fin 1))
      = GraphRow.clip (((m ((c : Thread nD τ).loc main_arg4)) : S100000.Idx → BitVec 32) (ix1 (rowOf t p))) := by
  unfold iblk
  rw [View.read_apply, cast_eq]
  rw [HostPrefix.V_batch m c, emb_batch]
  exact (HostPrefix.col_apply (HostPrefix.clipK (m ((c : Thread nD τ).loc main_arg4))) shapeCasts_S100000_S100000x1 (rowOf t p)).trans
    (HostPrefix.clipK_apply _ _)

/-- The graph table is read whole. -/
theorem blk_u (c : Dev nD) (t : Fin cfg0.N) :
    (iblk m c 4 t : Vec Ideal S64x32 .f32) = ((m ((c : Thread nD τ).loc main_arg3)) : S64x32.Idx → EReal) := by
  funext j
  unfold iblk
  rw [View.read_apply, cast_eq]
  rw [V_main_arg3 m c, emb_u]

/-- The first group of rows of the first weight matrix, read whole. -/
theorem blk_w1x (c : Dev nD) (t : Fin cfg0.N) :
    (iblk m c 5 t : Vec Ideal S64x128 .f32) = NodeMlp.rows (m ((c : Thread nD τ).loc main_arg5)) 0 64 (by omega) := by
  funext j
  unfold iblk
  rw [View.read_apply, cast_eq]
  rw [HostPrefix.V_w1x m c, emb_w1x]
  obtain ⟨a, k, rfl⟩ : ∃ (a : Fin 64) (k : Fin 128), j = ix2 a k := ⟨j 0, j 1, eq_ix2 j⟩
  exact (slice2_axis0_apply 0 _ slices_S144x128_S64x128_0_0 a k (⟨0 + a.val, by have := a.isLt; omega⟩ : Fin 144) rfl).trans
    (NodeMlp.rows_apply _ 0 64 (by omega) a k).symm

/-- The second group of rows of the first weight matrix, read whole. -/
theorem blk_w1e (c : Dev nD) (t : Fin cfg0.N) :
    (iblk m c 6 t : Vec Ideal S48x128 .f32) = NodeMlp.rows (m ((c : Thread nD τ).loc main_arg5)) 64 48 (by omega) := by
  funext j
  unfold iblk
  rw [View.read_apply, cast_eq]
  rw [HostPrefix.V_w1e m c, emb_w1e]
  obtain ⟨a, k, rfl⟩ : ∃ (a : Fin 48) (k : Fin 128), j = ix2 a k := ⟨j 0, j 1, eq_ix2 j⟩
  exact (slice2_axis0_apply 64 _ slices_S144x128_S48x128_64_0 a k (⟨64 + a.val, by have := a.isLt; omega⟩ : Fin 144) rfl).trans
    (NodeMlp.rows_apply _ 64 48 (by omega) a k).symm

/-- The third group of rows of the first weight matrix, read whole. -/
theorem blk_w1u (c : Dev nD) (t : Fin cfg0.N) :
    (iblk m c 7 t : Vec Ideal S32x128 .f32) = NodeMlp.rows (m ((c : Thread nD τ).loc main_arg5)) 112 32 (by omega) := by
  funext j
  unfold iblk
  rw [View.read_apply, cast_eq]
  rw [HostPrefix.V_w1u m c, emb_w1u]
  obtain ⟨a, k, rfl⟩ : ∃ (a : Fin 32) (k : Fin 128), j = ix2 a k := ⟨j 0, j 1, eq_ix2 j⟩
  exact (slice2_axis0_apply 112 _ slices_S144x128_S32x128_112_0 a k (⟨112 + a.val, by have := a.isLt; omega⟩ : Fin 144) rfl).trans
    (NodeMlp.rows_apply _ 112 32 (by omega) a k).symm

/-- The first bias, read whole. -/
theorem blk_b1 (c : Dev nD) (t : Fin cfg0.N) :
    (iblk m c 8 t : Vec Ideal S128 .f32) = ((m ((c : Thread nD τ).loc main_arg6)) : S128.Idx → EReal) := by
  funext j
  unfold iblk
  rw [View.read_apply, cast_eq]
  rw [V_main_arg6 m c, emb_b1]

/-- The second weight matrix, read whole. -/
theorem blk_w2 (c : Dev nD) (t : Fin cfg0.N) :
    (iblk m c 9 t : Vec Ideal S128x128 .f32) = ((m ((c : Thread nD τ).loc main_arg7)) : S128x128.Idx → EReal) := by
  funext j
  unfold iblk
  rw [View.read_apply, cast_eq]
  rw [V_main_arg7 m c, emb_w2]

/-- The second bias, read whole. -/
theorem blk_b2 (c : Dev nD) (t : Fin cfg0.N) :
    (iblk m c 10 t : Vec Ideal S128 .f32) = ((m ((c : Thread nD τ).loc main_arg8)) : S128.Idx → EReal) := by
  funext j
  unfold iblk
  rw [View.read_apply, cast_eq]
  rw [V_main_arg8 m c, emb_b2]

/-- The third weight matrix, read whole. -/
theorem blk_w3 (c : Dev nD) (t : Fin cfg0.N) :
    (iblk m c 11 t : Vec Ideal S128x64 .f32) = ((m ((c : Thread nD τ).loc main_arg9)) : S128x64.Idx → EReal) := by
  funext j
  unfold iblk
  rw [View.read_apply, cast_eq]
  rw [V_main_arg9 m c, emb_w3]

/-- The output bias, read whole. -/
theorem blk_b3 (c : Dev nD) (t : Fin cfg0.N) :
    (iblk m c 12 t : Vec Ideal S64 .f32) = ((m ((c : Thread nD τ).loc main_arg10)) : S64.Idx → EReal) := by
  funext j
  unfold iblk
  rw [View.read_apply, cast_eq]
  rw [V_main_arg10 m c, emb_b3]

end Cert.KernelIdeal.KValue

end
-- ==== Proof.LibPlainDot.lean ====
/-
  A plain matrix product read at an entry.
  The dimension numbers "contract the left operand's axis 1 with the right operand's axis 0, no batch axis" describe the
  product of an [M, K] matrix with a [K, N] matrix. At the ideal instance its entry (p, q) is the sum over k of
  l[p, k] * r[k, q], both for the vector unit's product into a zero accumulator and for the host's dot_general. The lemmas
  are stated for any extents M, K, N and any proof of the dimension numbers' well-formedness, so every record with
  these six axis lists is an instance.
-/
import Idealize.ShloMosaic.PureOps.Ideal.Laws
import Idealize.ShloMosaic.Lib.ValueIdx

noncomputable section

namespace Cert.LibPlainDot

open Idealize.ShloMosaic Idealize.ShloMosaic.ValueIdx

/-- The dimension numbers of the plain product [M, K] × [K, N] → [M, N], over any proof that they are well formed. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section
variable {M K N : Nat} (wf : DotDims.WF ⟨2, ![M, K]⟩ ⟨2, ![K, N]⟩ ⟨2, ![M, N]⟩ [1] [0] [0] [1] [] [])

/-- The left operand's row is the result's row: axis 0 of the left operand is its one free axis. -/
theorem lhs_row (j : (⟨2, ![M, N]⟩ : Shape).Idx) (k : (plainDims M K N wf).contr.Idx) :
    ((plainDims M K N wf).lhsIdx j k 0).val = (j 0).val := by
  unfold DotDims.lhsIdx
  rw [dif_neg (show ¬(0 : Fin (⟨2, ![M, K]⟩ : Shape).rank) ∈ (plainDims M K N wf).lhsBatch from List.not_mem_nil),
    dif_pos (show (0 : Fin (⟨2, ![M, K]⟩ : Shape).rank) ∈ (plainDims M K N wf).lhsNonContracting from List.mem_singleton.mpr rfl)]
  rfl

/-- The left operand's column is the contraction index. -/
theorem lhs_col (j : (⟨2, ![M, N]⟩ : Shape).Idx) (k : (plainDims M K N wf).contr.Idx) :
    ((plainDims M K N wf).lhsIdx j k 1).val = (k ⟨0, Nat.one_pos⟩).val :=
  (plainDims M K N wf).lhsIdx_val_of_single rfl j k

/-- The right operand's row is the contraction index. -/
theorem rhs_row (j : (⟨2, ![M, N]⟩ : Shape).Idx) (k : (plainDims M K N wf).contr.Idx) :
    ((plainDims M K N wf).rhsIdx j k 0).val = (k ⟨0, Nat.one_pos⟩).val :=
  (plainDims M K N wf).rhsIdx_val_of_single rfl j k

/-- The right operand's column is the result's column: axis 1 of the right operand is its one free axis. -/
theorem rhs_col (j : (⟨2, ![M, N]⟩ : Shape).Idx) (k : (plainDims M K N wf).contr.Idx) :
    ((plainDims M K N wf).rhsIdx j k 1).val = (j 1).val := by
  unfold DotDims.rhsIdx
  rw [dif_neg (show ¬(1 : Fin (⟨2, ![K, N]⟩ : Shape).rank) ∈ (plainDims M K N wf).rhsBatch from List.not_mem_nil),
    dif_pos (show (1 : Fin (⟨2, ![K, N]⟩ : Shape).rank) ∈ (plainDims M K N wf).rhsNonContracting from List.mem_singleton.mpr rfl)]
  rfl

/-- THE CONTRACTION'S SUM over the one contracted axis, re-indexed by its coordinate k : Fin K: the operands are read
    at (p, k) and (k, q). -/
theorem sum_contr {α : Type} [AddCommMonoid α] (f : (⟨2, ![M, K]⟩ : Shape).Idx → (⟨2, ![K, N]⟩ : Shape).Idx → α)
    (p : Fin M) (q : Fin N) :
    ∑ k : (plainDims M K N wf).contr.Idx, f ((plainDims M K N wf).lhsIdx (ix2 p q) k) ((plainDims M K N wf).rhsIdx (ix2 p q) k)
      = ∑ k : Fin K, f (ix2 p k) (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact (lhs_col wf _ _).trans hk)
  have er : (plainDims M K N wf).rhsIdx (ix2 p q) ((contrEquiv1 (plainDims M K N wf) K rfl rfl).symm k) = ix2 k q :=
    funext fun a => Fin.ext (by
      match a with
      | ⟨0, _⟩ => exact (rhs_row wf _ _).trans hk
      | ⟨1, _⟩ => exact rhs_col wf _ _)
  rw [el, er]

/-- THE VECTOR UNIT'S PRODUCT INTO A ZERO ACCUMULATOR, at the ideal instance, read at (p, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (plainDims M K N wf) prec l r (constant ⟨2, ![M, N]⟩ .f32 0x00000000#32) (ix2 p q)
      = ∑ k : Fin K, l (ix2 p k) * r (ix2 k q) := by
  rw [Ideal.matmul_constant_zero_apply]
  exact sum_contr wf (fun a b => l a * r b) p q

/-- THE HOST'S dot_general, at the ideal instance, read at (p, q). -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (plainDims M K N wf) prec sched l r (ix2 p q)
      = ∑ k : Fin K, l (ix2 p k) * r (ix2 k q) := by
  rw [Ideal.dotGeneral_apply]
  exact sum_contr wf (fun a b => l a * r b) p q

end

end Cert.LibPlainDot

end
-- ==== Proof.KernelBody.lean ====
/-
  The kernel body's value at an entry of the output block.
  The body computes, for the 2000 nodes of a block, the node update of Spec.lean: the mean of edge attributes is the
  block of sums divided by the edge count floored at one; a node's graph features are the product of a 0/1 indicator
  block (column g is 1 exactly where g is the node's graph index) with the graph table; the first layer is the sum of
  three products, one per group of rows of the first weight matrix. At the ideal instance a change of float format
  is the identity and a product into a zero accumulator is the plain sum, so each step reads at an entry directly.
-/
import proofs.«415170_j82343112999493_3_alg».proof.Proof.Gen.KernelIdeal.Skeleton
import proofs.«415170_j82343112999493_3_alg».proof.Proof.Spec
import proofs.«415170_j82343112999493_3_alg».proof.Proof.LibPlainDot
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx
open scoped BigOperators

/-! ## Layout readings -/

/-- An [a, 1] column broadcast to [a, b] reads, at (p, c), the column at p. -/
theorem bcast_col_apply {α : Type} {a b : ℕ} (ha : a ≠ 1) (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    rw [if_neg ha]
  | ⟨1, _⟩ => rfl

/-- A bias vector [n] viewed [1, n] and broadcast over a rows reads, at (p, j), the bias at j. -/
theorem bias_apply {α : Type} {a n : ℕ} (b : (⟨1, ![n]⟩ : Shape).Idx → α) (h1 : (⟨1, ![n]⟩ : Shape).ShapeCasts ⟨2, ![1, n]⟩)
    (h2 : (⟨2, ![1, n]⟩ : Shape).Broadcasts ⟨2, ![a, n]⟩) (p : Fin a) (j : Fin n) :
    broadcastTo ⟨2, ![a, n]⟩ (shapeCast ⟨2, ![1, n]⟩ b h1) h2 (ix2 p j) = b (ix1 j) := by
  rw [broadcastTo_1b_ab_apply, shapeCast_a_1a_apply]

/-! ## The body's pieces -/

/-- The product of two f32 blocks, each rounded to bf16, into a zero f32 accumulator. -/
def mm {M K N : Nat} (wf : DotDims.WF ⟨2, ![M, K]⟩ ⟨2, ![K, N]⟩ ⟨2, ![M, N]⟩ [1] [0] [0] [1] [] [])
    (l : FVec Ideal ⟨2, ![M, K]⟩ .f32) (r : FVec Ideal ⟨2, ![K, N]⟩ .f32) : FVec Ideal ⟨2, ![M, N]⟩ .f32 :=
  matmul (LibPlainDot.plainDims M K N wf) none (truncf .bf16 l bitsLt_bf16_f32) (truncf .bf16 r bitsLt_bf16_f32)
    (constant ⟨2, ![M, N]⟩ .f32 0x00000000#32)

theorem mm_apply {M K N : Nat} (wf : DotDims.WF ⟨2, ![M, K]⟩ ⟨2, ![K, N]⟩ ⟨2, ![M, N]⟩ [1] [0] [0] [1] [] [])
    (l : FVec Ideal ⟨2, ![M, K]⟩ .f32) (r : FVec Ideal ⟨2, ![K, N]⟩ .f32) (p : Fin M) (q : Fin N) :
    mm wf l r (ix2 p q) = ∑ k : Fin K, l (ix2 p k) * r (ix2 k q) :=
  LibPlainDot.matmul_zero_apply wf none _ _ p q

/-- The rectifier on a block of hidden units. -/
def relu (h : FVec Ideal S2000x128 .f32) : FVec Ideal S2000x128 .f32 :=
  maximumf h (broadcast S2000x128 (Scalar.ofBits (F := Ideal) .f32 0x00000000#32))

theorem relu_apply (h : FVec Ideal S2000x128 .f32) (p : Fin 2000) (j : Fin 128) :
    relu h (ix2 p j) = max (h (ix2 p j)) NodeMlp.zeroW := rfl

/-- A hidden bias added to every row of a block. -/
def addBias128 (h : FVec Ideal S2000x128 .f32) (b : FVec Ideal S128 .f32) : FVec Ideal S2000x128 .f32 :=
  addf h (broadcastTo S2000x128 (shapeCast S1x128 b shapeCasts_S128_S1x128) broadcasts_S1x128_S2000x128)

theorem addBias128_apply (h : FVec Ideal S2000x128 .f32) (b : FVec Ideal S128 .f32) (p : Fin 2000) (j : Fin 128) :
    addBias128 h b (ix2 p j) = h (ix2 p j) + b (ix1 j) := by
  unfold addBias128
  rw [addf_apply, bias_apply]

/-- The output bias added to every row of a block. -/
def addBias64 (h : FVec Ideal S2000x64 .f32) (b : FVec Ideal S64 .f32) : FVec Ideal S2000x64 .f32 :=
  addf h (broadcastTo S2000x64 (shapeCast S1x64 b shapeCasts_S64_S1x64) broadcasts_S1x64_S2000x64)

theorem addBias64_apply (h : FVec Ideal S2000x64 .f32) (b : FVec Ideal S64 .f32) (p : Fin 2000) (q : Fin 64) :
    addBias64 h b (ix2 p q) = h (ix2 p q) + b (ix1 q) := by
  unfold addBias64
  rw [addf_apply, bias_apply]

/-- The block of mean edge attributes: sums over the edge count floored at one. -/
def meanBlk (s : FVec Ideal S2000x48 .f32) (cn : FVec Ideal S2000x1 .f32) : FVec Ideal S2000x48 .f32 :=
  divf (shapeCast S2000x48 s shapeCasts_S2000x48_S2000x48)
    (broadcastTo S2000x48 (maximumf (shapeCast S2000x1 cn shapeCasts_S2000x1_S2000x1)
      (broadcast S2000x1 (Scalar.ofBits (F := Ideal) .f32 0x3F800000#32))) broadcasts_S2000x1_S2000x48)

theorem meanBlk_apply (s : FVec Ideal S2000x48 .f32) (cn : FVec Ideal S2000x1 .f32) (p : Fin 2000) (a : Fin 48) :
    meanBlk s cn (ix2 p a) = Ideal.div (s (ix2 p a)) (max (cn (ix2 p (0 : Fin 1))) NodeMlp.oneW) := by
  unfold meanBlk
  rw [divf_apply, bcast_col_apply (by decide), shapeCast_self, shapeCast_self]
  rfl

/-- The block of indicators: column g of row p is 1 exactly where g is row p's graph index. -/
def hotBlk (bt : IVec S2000x1 32) : FVec Ideal S2000x64 .f32 :=
  sitofp .f32 (extui 32 (cmpi .eq (iota .tc S2000x64 32 [1] iota_S2000x64_d1_w32)
    (broadcastTo S2000x64 (shapeCast S2000x1 bt shapeCasts_S2000x1_S2000x1) broadcasts_S2000x1_S2000x64)) natLt_1_32)

theorem hotBlk_apply (bt : IVec S2000x1 32) (p : Fin 2000) (g : Fin 64) :
    hotBlk bt (ix2 p g) = NodeMlp.hot (bt (ix2 p (0 : Fin 1))) g := by
  unfold hotBlk NodeMlp.hot
  rw [sitofp_apply, extui_apply]
  show ((((IntOp.cmpi .eq (iota .tc S2000x64 32 [1] iota_S2000x64_d1_w32 (ix2 p g))
    (broadcastTo S2000x64 (shapeCast S2000x1 bt shapeCasts_S2000x1_S2000x1) broadcasts_S2000x1_S2000x64 (ix2 p g))).setWidth 32).toInt : ℝ) : EReal) = _
  rw [iota_single_apply, bcast_col_apply (by decide), shapeCast_self]

/-! ## The two payloads are these pieces -/

theorem pay2_eq (s : Vec Ideal S2000x48 .f32) (cn : Vec Ideal S2000x1 .f32) (bt : Vec Ideal S2000x1 .i32) (u : Vec Ideal S64x32 .f32)
    (x : Vec Ideal S2000x64 .f32) (w1x : Vec Ideal S64x128 .f32) (w1e : Vec Ideal S48x128 .f32) (w1u : Vec Ideal S32x128 .f32) :
    k0_pay2 (F := Ideal) s cn bt u x w1x w1e w1u
      = addf (addf (mm dot_S2000x64_S64x128_S2000x128_1_0_0_1_n_n_wf x (shapeCast S64x128 w1x shapeCasts_S64x128_S64x128))
          (mm dot_S2000x48_S48x128_S2000x128_1_0_0_1_n_n_wf (meanBlk s cn) (shapeCast S48x128 w1e shapeCasts_S48x128_S48x128)))
        (mm dot_S2000x32_S32x128_S2000x128_1_0_0_1_n_n_wf (mm dot_S2000x64_S64x32_S2000x32_1_0_0_1_n_n_wf (hotBlk bt) u)
          (shapeCast S32x128 w1u shapeCasts_S32x128_S32x128)) := rfl

theorem pay1_eq (v36 : FVec Ideal S2000x128 .f32) (b1 : Vec Ideal S128 .f32) (w2 : Vec Ideal S128x128 .f32) (b2 : Vec Ideal S128 .f32)
    (w3 : Vec Ideal S128x64 .f32) (b3 : Vec Ideal S64 .f32) :
    k0_pay1 (F := Ideal) v36 b1 w2 b2 w3 b3
      = addBias64 (mm dot_S2000x128_S128x64_S2000x64_1_0_0_1_n_n_wf
          (relu (addBias128 (mm dot_S2000x128_S128x128_S2000x128_1_0_0_1_n_n_wf (relu (addBias128 v36 b1)) w2) b2)) w3) b3 := rfl

/-! ## The payload at an entry -/

/-- THE BODY'S STORED VALUE AT (p, q) is the node update of row p at feature q: own features from the x block, mean
    edge attributes from the sums and count blocks, graph features as the indicator sum against the graph table. -/
theorem payload_apply (s : Vec Ideal S2000x48 .f32) (cn : Vec Ideal S2000x1 .f32) (bt : Vec Ideal S2000x1 .i32) (u : Vec Ideal S64x32 .f32)
    (x : Vec Ideal S2000x64 .f32) (w1x : Vec Ideal S64x128 .f32) (w1e : Vec Ideal S48x128 .f32) (w1u : Vec Ideal S32x128 .f32)
    (b1 : Vec Ideal S128 .f32) (w2 : Vec Ideal S128x128 .f32) (b2 : Vec Ideal S128 .f32) (w3 : Vec Ideal S128x64 .f32) (b3 : Vec Ideal S64 .f32)
    (p : Fin 2000) (q : Fin 64) :
    k0_pay1 (F := Ideal) (k0_pay2 (F := Ideal) s cn bt u x w1x w1e w1u) b1 w2 b2 w3 b3 (ix2 p q)
      = NodeMlp.node w1x w1e w1u b1 w2 b2 w3 b3 (fun a => x (ix2 p a))
          (fun a => Ideal.div (s (ix2 p a)) (max (cn (ix2 p (0 : Fin 1))) NodeMlp.oneW))
          (fun a => ∑ g : Fin 64, NodeMlp.hot (bt (ix2 p (0 : Fin 1))) g * u (ix2 g a)) q := by
  rw [pay1_eq, pay2_eq]
  unfold NodeMlp.node NodeMlp.outp NodeMlp.hid2 NodeMlp.hid1
  simp only [addBias64_apply, addBias128_apply, mm_apply, relu_apply, addf_apply, meanBlk_apply, hotBlk_apply, shapeCast_self]

end Cert.KernelIdeal.Body

end
-- ==== Proof.KernelValue.lean ====
/-
  The kernel's result array is the layer of Spec.lean.
  The grid has 50 points; point t works on nodes 2000 t, …, 2000 t + 1999: the blocks of the node features, of the
  per-node sums, of the edge count column, of the clamped graph index column and of the output are rows
  2000 t … 2000 t + 1999 of their arrays, while the graph table, the three row groups of the first weight matrix, the
  other weights and the biases are read whole at every point. So entry (p, q) of the block point t writes back is
  the layer at node 2000 t + p, feature q; the 50 blocks tile the result array.
-/
import proofs.«415170_j82343112999493_3_alg».proof.Proof.KernelBlocks
import proofs.«415170_j82343112999493_3_alg».proof.Proof.KernelBody
import Idealize.ShloMosaic.Lib.Pipeline.Value

set_option maxRecDepth 16384

noncomputable section

namespace Cert.KernelIdeal.KValue

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

/-! ## The result array -/

/-- The row of the graph table the kernel uses for node p: its graph index clamped into [0, 63]. -/
def kerRow (x4 : IVec S100000 32) (p : Fin 100000) : Fin 64 :=
  ⟨(GraphRow.clip (x4 (ix1 p))).toNat, GraphRow.clip_lt _⟩

/-- What the kernel's result array ends holding: the layer over the arguments, the two segment sums kept whole. -/
abbrev result (c : Dev nD) : S100000x64.Idx → EReal :=
  NodeMlp.layer (m ((c : Thread nD τ).loc main_arg0)) (HostPrefix.sumsK (F := Ideal) (m ((c : Thread nD τ).loc main_arg1)) (m ((c : Thread nD τ).loc main_arg2)))
    (HostPrefix.cntK (F := Ideal) (m ((c : Thread nD τ).loc main_arg1))) (m ((c : Thread nD τ).loc main_arg3)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10)) (kerRow (m ((c : Thread nD τ).loc main_arg4)))

/-- Equal node data give equal node updates. -/
theorem node_rows_congr (w1x : FVec Ideal ⟨2, ![64, 128]⟩ .f32) (w1e : FVec Ideal ⟨2, ![48, 128]⟩ .f32) (w1u : FVec Ideal ⟨2, ![32, 128]⟩ .f32)
    (b1 : FVec Ideal ⟨1, ![128]⟩ .f32) (w2 : FVec Ideal ⟨2, ![128, 128]⟩ .f32) (b2 : FVec Ideal ⟨1, ![128]⟩ .f32)
    (w3 : FVec Ideal ⟨2, ![128, 64]⟩ .f32) (b3 : FVec Ideal ⟨1, ![64]⟩ .f32)
    {xr xr' : Fin 64 → EReal} {er er' : Fin 48 → EReal} {gr gr' : Fin 32 → EReal}
    (hx : xr = xr') (he : er = er') (hg : gr = gr') (q : Fin 64) :
    NodeMlp.node w1x w1e w1u b1 w2 b2 w3 b3 xr er gr q = NodeMlp.node w1x w1e w1u b1 w2 b2 w3 b3 xr' er' gr' q := by
  rw [hx, he, hg]

/-- THE BODY AT ENTRY (p, q) OF POINT t'S BLOCKS is the layer at node 2000 t + p, feature q. -/
theorem body_block (c : Dev nD) (t : Fin cfg0.N) (p : Fin 2000) (q : Fin 64) :
    k0_pay1 (F := Ideal) (k0_pay2 (F := Ideal) (iblk m c 1 t) (iblk m c 2 t) (iblk m c 3 t) (iblk m c 4 t) (iblk m c 0 t)
        (iblk m c 5 t) (iblk m c 6 t) (iblk m c 7 t)) (iblk m c 8 t) (iblk m c 9 t) (iblk m c 10 t) (iblk m c 11 t)
        (iblk m c 12 t) (ix2 p q)
      = result m c (ix2 (rowOf t p) q) := by
  refine (Body.payload_apply (iblk m c 1 t) (iblk m c 2 t) (iblk m c 3 t) (iblk m c 4 t) (iblk m c 0 t) (iblk m c 5 t)
    (iblk m c 6 t) (iblk m c 7 t) (iblk m c 8 t) (iblk m c 9 t) (iblk m c 10 t) (iblk m c 11 t) (iblk m c 12 t) p q).trans ?_
  refine Eq.trans ?_ (NodeMlp.layer_apply _ _ _ _ _ _ _ _ _ _ _ (rowOf t p) q).symm
  unfold NodeMlp.nodeAt
  rw [blk_w1x m c t, blk_w1e m c t, blk_w1u m c t, blk_b1 m c t, blk_w2 m c t, blk_b2 m c t, blk_w3 m c t, blk_b3 m c t]
  refine node_rows_congr _ _ _ _ _ _ _ _ (funext fun a => blk_x m c t p a)
    (funext fun a => by rw [blk_sums m c t p a, blk_cnt m c t p]) (funext fun a => ?_) q
  rw [blk_batch m c t p, NodeMlp.sum_hot _ (GraphRow.clip_lt _), blk_u m c t]
  rfl

/-- WHAT POINT t WRITES BACK is block t of the result. -/
theorem flushed_eq (c : Dev nD) (t : Fin cfg0.N) :
    (dats m 0 c).flushed 13 t = ((cfg0.win 13).blk t).view.read (Elt Ideal) (result m c) := by
  rw [flushed13]
  unfold out0_13
  rw [View.canon_unit_zero hz2]
  simp only [View.ld_unit_zero (S := S2000x48) hz2, View.ld_unit_zero (S := S2000x1) hz2, View.ld_unit_zero (S := S64x32) hz2,
    View.ld_unit_zero (S := S2000x64) hz2, View.ld_unit_zero (S := S64x128) hz2, View.ld_unit_zero (S := S48x128) hz2,
    View.ld_unit_zero (S := S32x128) hz2, View.ld_unit_zero (S := S128) hz1, View.ld_unit_zero (S := S128x128) hz2,
    View.ld_unit_zero (S := S128x64) hz2, View.ld_unit_zero (S := S64) hz1]
  funext j
  obtain ⟨p, q, rfl⟩ : ∃ (p : Fin 2000) (q : Fin 64), j = ix2 p q := ⟨j 0, j 1, eq_ix2 j⟩
  rw [View.read_apply, cast_eq, emb_out]
  exact body_block m c t p q

/-- An index of the result array is in point t's block iff each coordinate is in the block's range on its axis. -/
theorem mem_blk (t : Fin cfg0.N) (i : S100000x64.Idx) :
    i ∈ ((cfg0.win 13).blk t).view.set ↔ ∀ a : Fin 2, win0_13.index t a * S2000x64.size a ≤ (i a).val
      ∧ (i a).val < win0_13.index t a * S2000x64.size a + S2000x64.size a := by
  show i ∈ ((View.whole main_v15).slice (win0_13.rect t)).set ↔ _
  rw [View.set_slice_whole, Rect.mem_set_unit]
  exact Iff.rfl

/-- THE RESULT ARRAY after the run: node i's row is in the block of point i / 2000, and the blocks tile the array. -/
theorem final (c : Dev nD) : (dats m 0 c).arrAt 13 cfg0.N = result m c :=
  (dats m 0 c).arrAt_eq_of_cover 13 (result m c) (fun t _ => flushed_eq m c t) fun i => by
    have hi0 : (i 0).val < 100000 := (i 0).isLt
    have hi1 : (i 1).val < 64 := (i 1).isLt
    have hN : cfg0.N = 50 := N_0
    let t : Fin cfg0.N := ⟨(i 0).val / 2000, by omega⟩
    obtain ⟨-, -, -, -, ⟨h0, h1⟩⟩ := idx_rows t
    have ht : t.val = (i 0).val / 2000 := rfl
    refine ⟨t, flush0_13 t, (mem_blk t i).mpr ?_⟩
    intro a
    match a with
    | ⟨0, _⟩ => show win0_13.index t (0 : Fin 2) * 2000 ≤ (i 0).val ∧ (i 0).val < win0_13.index t (0 : Fin 2) * 2000 + 2000; omega
    | ⟨1, _⟩ => show win0_13.index t (1 : Fin 2) * 64 ≤ (i 1).val ∧ (i 1).val < win0_13.index t (1 : Fin 2) * 64 + 64; omega

/-- The kernel's run, read: the result array holds the layer, the arguments are unchanged. -/
theorem run : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (run_blocks m ρ)

end Cert.KernelIdeal.KValue

end
-- ==== Proof.LibIndex.lean ====
/-
  Reading a row gather and an accumulating row scatter at an index.
  A row gather takes row `idx[t]` of a two-axis operand for every `t`: the start index is read signed and clamped
  into the operand's rows. An accumulating scatter adds update row `t` into operand row `idx[t]`: the start index
  is read signed and NOT clamped, and an update whose row is outside the operand is dropped; so at the ideal
  instance the result at row `n` is the operand's entry plus the sum of the updates over the `t` with `idx[t] = n`.
-/
import Idealize.ShloMosaic.PureOps.Ideal
import Idealize.ShloMosaic.Lib.ValueIdx

noncomputable section

namespace Cert.LibIndex

open Idealize.ShloMosaic Idealize.ShloMosaic.ValueIdx

/-- The dimension numbers of a row gather: operand `[N, C]`, indices `[T, 1]`, result `[T, C]`; result row `t` is the
    operand's row at the start index `idx[t, 0]`, whole (slice sizes `[1, C]`, the row axis collapsed). -/
abbrev rowGatherDims (N T C : Nat)
    (wf : GatherDims.WF ⟨2, ![N, C]⟩ ⟨2, ![T, 1]⟩ ⟨2, ![T, C]⟩ [1] [0] [] [0] [] 1 ![1, C]) :
    GatherDims ⟨2, ![N, C]⟩ ⟨2, ![T, 1]⟩ ⟨2, ![T, C]⟩ where
  offsetDims := [1]
  collapsedSliceDims := [0]
  operandBatchingDims := []
  startIndicesBatchingDims := []
  startIndexMap := [0]
  indexVectorDim := 1
  sliceSizes := ![1, C]
  wf := wf

section Gather
variable {N T C w : Nat}
  (wf : GatherDims.WF ⟨2, ![N, C]⟩ ⟨2, ![T, 1]⟩ ⟨2, ![T, C]⟩ [1] [0] [] [0] [] 1 ![1, C])

/-- Result position `(t, j)` reads its start index at `(t, 0)`: the result's one batch axis (axis 0) supplies the
    indices' axis 0, and the index vector (axis 1, of extent 1) has only the component `0`. -/
theorem rowGather_siIdx (t : Fin T) (j : Fin C) (c : Fin (rowGatherDims N T C wf).startIndexMap.length) :
    (rowGatherDims N T C wf).siIdx (ix2 t j) c = ix2 t (0 : Fin 1) := by
  funext b
  refine Fin.ext ?_
  match b with
  | ⟨0, _⟩ => rfl
  | ⟨1, _⟩ =>
    have hc : c.val < 1 := c.isLt
    show c.val = 0
    omega

/-- On the row axis the slice starts at the start index read signed and clamped into `[0, N - 1]`: the axis is the one
    the start index map names, and the slice there has one row. -/
theorem rowGather_row_start (idx : IVec ⟨2, ![T, 1]⟩ w) (t : Fin T) (j : Fin C) :
    (rowGatherDims N T C wf).start (ix2 t j) idx 0 = min (idx (ix2 t (0 : Fin 1))).toInt.toNat (N - 1) := by
  unfold GatherDims.start
  rw [dif_pos (show (0 : Fin 2) ∈ (rowGatherDims N T C wf).startIndexMap from List.mem_singleton.mpr rfl),
    rowGather_siIdx]
  rfl

/-- The row axis is collapsed, so the result gives it no offset. -/
theorem rowGather_row_off (t : Fin T) (j : Fin C) : (rowGatherDims N T C wf).offCoord (ix2 t j) 0 = 0 :=
  GatherDims.offCoord_eq_zero _ _ _ (fun h => ((GatherDims.mem_sKept _ _).mp h).1 (List.mem_singleton.mpr rfl))

/-- The column axis is not named by the start index map: its slice starts at `0`. -/
theorem rowGather_col_start (idx : IVec ⟨2, ![T, 1]⟩ w) (t : Fin T) (j : Fin C) :
    (rowGatherDims N T C wf).start (ix2 t j) idx 1 = 0 := by
  unfold GatherDims.start
  rw [dif_neg]
  intro h
  exact absurd (congrArg Fin.val (List.mem_singleton.mp h)) Nat.one_ne_zero

/-- The column axis is the operand's one kept axis, read by the result's one offset axis (axis 1): the offset is `j`. -/
theorem rowGather_col_off (t : Fin T) (j : Fin C) :
    (rowGatherDims N T C wf).offCoord (ix2 t j) 1 = j.val := rfl

end Gather

/-- THE ROW GATHER READ AT `(t, j)`: the operand at row `idx[t, 0]` (read signed, clamped into `[0, N − 1]`), column `j`. -/
theorem rowGather_apply {α : Type} {N T C w : Nat} (hN : 0 < N)
    (wf : GatherDims.WF ⟨2, ![N, C]⟩ ⟨2, ![T, 1]⟩ ⟨2, ![T, C]⟩ [1] [0] [] [0] [] 1 ![1, C])
    (x : (⟨2, ![N, C]⟩ : Shape).Idx → α) (idx : IVec ⟨2, ![T, 1]⟩ w) (t : Fin T) (j : Fin C) :
    Host.gather (rowGatherDims N T C wf) x idx (ix2 t j)
      = x (ix2 (⟨min (idx (ix2 t (0 : Fin 1))).toInt.toNat (N - 1), by omega⟩ : Fin N) j) := by
  -- the gather reads the operand at the position whose coordinate on each axis is
  -- slice start + batching coordinate + offset; there is no batching axis, so the middle term is 0 on both axes
  have hb : ∀ a, (rowGatherDims N T C wf).batchCoord (ix2 t j) a = 0 :=
    fun a => GatherDims.batchCoord_eq_zero _ _ a List.not_mem_nil
  unfold Host.gather
  congr 1
  funext a
  refine Fin.ext ?_
  match a with
  | ⟨0, _⟩ =>
    -- row axis: clamped start index + 0 + 0
    show (rowGatherDims N T C wf).start (ix2 t j) idx 0 + (rowGatherDims N T C wf).batchCoord (ix2 t j) 0
        + (rowGatherDims N T C wf).offCoord (ix2 t j) 0 = min (idx (ix2 t (0 : Fin 1))).toInt.toNat (N - 1)
    rw [hb, rowGather_row_off, rowGather_row_start]
    rfl
  | ⟨1, _⟩ =>
    -- column axis: 0 + 0 + j
    show (rowGatherDims N T C wf).start (ix2 t j) idx 1 + (rowGatherDims N T C wf).batchCoord (ix2 t j) 1
        + (rowGatherDims N T C wf).offCoord (ix2 t j) 1 = j.val
    rw [hb, rowGather_col_off, rowGather_col_start]
    omega

/-! ## Accumulating scatters -/

/-- An update at `j` lands on operand position `i` exactly when, on every operand axis, its (unclamped, signed) window
    start plus its window coordinate is `i`'s coordinate: the landing position exists when that sum is inside the
    operand on every axis, and then is that sum; and a coordinate of `i` is inside the operand. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i hin
    rw [Option.some.injEq]
    constructor
    · intro he a
      have h1 := hin a
      have h2 : (d.start j idx a + (d.window j a : Int)).toNat = (i a).val := by rw [← he]
      omega
    · intro hall
      funext a
      refine Fin.ext ?_
      have h1 := hall a
      show (d.start j idx a + (d.window j a : Int)).toNat = (i a).val
      omega
  · rename_i hout
    constructor
    · intro he
      cases he
    · intro hall
      refine absurd (fun a => ?_) hout
      have h1 := hall a
      have h2 := (i a).isLt
      omega

/-- The dimension numbers of an accumulating row scatter: operand `[N, H]`, indices `[T, 1]`, updates `[T, H]`; update
    row `t` goes to operand row `idx[t, 0]`. -/
abbrev rowScatterDims (N T H : Nat)
    (wf : ScatterDims.WF ⟨2, ![N, H]⟩ ⟨2, ![T, 1]⟩ ⟨2, ![T, H]⟩ [1] [0] [0] 1) :
    ScatterDims ⟨2, ![N, H]⟩ ⟨2, ![T, 1]⟩ ⟨2, ![T, H]⟩ where
  updateWindowDims := [1]
  insertedWindowDims := [0]
  scatterDimsToOperandDims := [0]
  indexVectorDim := 1
  wf := wf

section RowScatter
variable {N T H w : Nat} (wf : ScatterDims.WF ⟨2, ![N, H]⟩ ⟨2, ![T, 1]⟩ ⟨2, ![T, H]⟩ [1] [0] [0] 1)

/-- Update position `(t, k)` reads its start index at `(t, 0)`: the updates' one scatter axis (axis 0) supplies the
    indices' axis 0, and the index vector (axis 1, of extent 1) has only the component `0`. -/
theorem rowScatter_siIdx (t : Fin T) (k : Fin H) (c : Fin (rowScatterDims N T H wf).scatterDimsToOperandDims.length) :
    (rowScatterDims N T H wf).siIdx (ix2 t k) c = ix2 t (0 : Fin 1) := by
  funext b
  refine Fin.ext ?_
  match b with
  | ⟨0, _⟩ => rfl
  | ⟨1, _⟩ =>
    have hc : c.val < 1 := c.isLt
    show c.val = 0
    omega

/-- On the row axis the window starts at the start index, read signed and left as it is. -/
theorem rowScatter_row_start (idx : IVec ⟨2, ![T, 1]⟩ w) (t : Fin T) (k : Fin H) :
    (rowScatterDims N T H wf).start (ix2 t k) idx 0 = (idx (ix2 t (0 : Fin 1))).toInt := by
  unfold ScatterDims.start
  rw [dif_pos (show (0 : Fin 2) ∈ (rowScatterDims N T H wf).scatterDimsToOperandDims from List.mem_singleton.mpr rfl),
    rowScatter_siIdx]

/-- The row axis is the inserted one: the update has no window coordinate there. -/
theorem rowScatter_row_window (t : Fin T) (k : Fin H) : (rowScatterDims N T H wf).window (ix2 t k) 0 = 0 := rfl

/-- The column axis is not a scattered axis: the window starts at `0` there. -/
theorem rowScatter_col_start (idx : IVec ⟨2, ![T, 1]⟩ w) (t : Fin T) (k : Fin H) :
    (rowScatterDims N T H wf).start (ix2 t k) idx 1 = 0 := by
  unfold ScatterDims.start
  rw [dif_neg]
  intro h
  exact absurd (congrArg Fin.val (List.mem_singleton.mp h)) Nat.one_ne_zero

/-- The column axis is the operand's one kept axis, filled by the updates' one window axis (axis 1): the window
    coordinate there is the update's column. -/
theorem rowScatter_col_window (t : Fin T) (k : Fin H) : (rowScatterDims N T H wf).window (ix2 t k) 1 = k.val := rfl

/-- Update `(t, k)` lands on operand position `(n, h)` exactly when its start index, read signed, is `n` and its
    column is `h`. -/
theorem rowScatter_lands_iff (idx : IVec ⟨2, ![T, 1]⟩ w) (t : Fin T) (k : Fin H) (n : Fin N) (h : Fin H) :
    (rowScatterDims N T H wf).resultIdx? (ix2 t k) idx = some (ix2 n h)
      ↔ (idx (ix2 t (0 : Fin 1))).toInt = (n.val : Int) ∧ k = h := by
  rw [resultIdx?_eq_some_iff]
  constructor
  · intro hall
    have h0 := hall 0
    have h1 := hall 1
    rw [rowScatter_row_start, rowScatter_row_window] at h0
    rw [rowScatter_col_start, rowScatter_col_window] at h1
    have h0' : (idx (ix2 t (0 : Fin 1))).toInt + ((0 : Nat) : Int) = (n.val : Int) := h0
    have h1' : (0 : Int) + (k.val : Int) = (h.val : Int) := h1
    exact ⟨by omega, Fin.ext (by omega)⟩
  · rintro ⟨h0, rfl⟩ a
    match a with
    | ⟨0, _⟩ =>
      show (rowScatterDims N T H wf).start (ix2 t k) idx 0 + (((rowScatterDims N T H wf).window (ix2 t k) 0 : Nat) : Int)
        = (n.val : Int)
      rw [rowScatter_row_start, rowScatter_row_window]
      omega
    | ⟨1, _⟩ =>
      show (rowScatterDims N T H wf).start (ix2 t k) idx 1 + (((rowScatterDims N T H wf).window (ix2 t k) 1 : Nat) : Int)
        = (k.val : Int)
      rw [rowScatter_col_start, rowScatter_col_window]
      omega

end RowScatter

/-- THE ACCUMULATING ROW SCATTER READ AT `(n, h)`, at the ideal instance: the operand's entry plus the updates' entries
    `(t, h)` over the rows `t` whose start index, read signed, is `n`. -/
theorem rowScatterAdd_apply {N T H w : Nat}
    (wf : ScatterDims.WF ⟨2, ![N, H]⟩ ⟨2, ![T, 1]⟩ ⟨2, ![T, H]⟩ [1] [0] [0] 1)
    (x : (⟨2, ![N, H]⟩ : Shape).Idx → EReal) (idx : IVec ⟨2, ![T, 1]⟩ w) (upd : (⟨2, ![T, H]⟩ : Shape).Idx → EReal)
    (n : Fin N) (h : Fin H) :
    Ideal.hostScatterAdd (rowScatterDims N T H wf) x idx upd (ix2 n h)
      = x (ix2 n h) + ∑ t ∈ Finset.univ.filter (fun t : Fin T => (idx (ix2 t (0 : Fin 1))).toInt = (n.val : Int)), upd (ix2 t h) := by
  unfold Ideal.hostScatterAdd
  congr 1
  -- the updates landing on (n, h) are the (t, h) with idx[t] = n: re-index their sum by the row t
  refine Finset.sum_nbij' (fun y => (y 0 : Fin T)) (fun t => ix2 t h) ?_ ?_ ?_ ?_ ?_
  · intro y hy
    obtain ⟨t, k, rfl⟩ : ∃ t k, y = ix2 t k := ⟨y 0, y 1, eq_ix2 y⟩
    exact Finset.mem_filter.mpr
      ⟨Finset.mem_univ _, ((rowScatter_lands_iff wf idx t k n h).mp (Finset.mem_filter.mp hy).2).1⟩
  · intro t ht
    exact Finset.mem_filter.mpr
      ⟨Finset.mem_univ _, (rowScatter_lands_iff wf idx t h n h).mpr ⟨(Finset.mem_filter.mp ht).2, rfl⟩⟩
  · intro y hy
    obtain ⟨t, k, rfl⟩ : ∃ t k, y = ix2 t k := ⟨y 0, y 1, eq_ix2 y⟩
    obtain ⟨_, rfl⟩ := (rowScatter_lands_iff wf idx t k n h).mp (Finset.mem_filter.mp hy).2
    rfl
  · intro t _
    rfl
  · intro y hy
    obtain ⟨t, k, rfl⟩ : ∃ t k, y = ix2 t k := ⟨y 0, y 1, eq_ix2 y⟩
    obtain ⟨_, rfl⟩ := (rowScatter_lands_iff wf idx t k n h).mp (Finset.mem_filter.mp hy).2
    rfl

/-- The dimension numbers of an accumulating scatter of scalars: operand `[N]`, indices `[T, 1]`, updates `[T]`. -/
abbrev vecScatterDims (N T : Nat)
    (wf : ScatterDims.WF ⟨1, ![N]⟩ ⟨2, ![T, 1]⟩ ⟨1, ![T]⟩ [] [0] [0] 1) :
    ScatterDims ⟨1, ![N]⟩ ⟨2, ![T, 1]⟩ ⟨1, ![T]⟩ where
  updateWindowDims := []
  insertedWindowDims := [0]
  scatterDimsToOperandDims := [0]
  indexVectorDim := 1
  wf := wf

section VecScatter
variable {N T w : Nat} (wf : ScatterDims.WF ⟨1, ![N]⟩ ⟨2, ![T, 1]⟩ ⟨1, ![T]⟩ [] [0] [0] 1)

/-- Update position `t` reads its start index at `(t, 0)`: the updates' only axis is a scatter axis and supplies the
    indices' axis 0; the index vector (axis 1, of extent 1) has only the component `0`. -/
theorem vecScatter_siIdx (t : Fin T) (c : Fin (vecScatterDims N T wf).scatterDimsToOperandDims.length) :
    (vecScatterDims N T wf).siIdx (ix1 t) c = ix2 t (0 : Fin 1) := by
  funext b
  refine Fin.ext ?_
  match b with
  | ⟨0, _⟩ => rfl
  | ⟨1, _⟩ =>
    have hc : c.val < 1 := c.isLt
    show c.val = 0
    omega

/-- On the operand's only axis the window starts at the start index, read signed and left as it is. -/
theorem vecScatter_start (idx : IVec ⟨2, ![T, 1]⟩ w) (t : Fin T) :
    (vecScatterDims N T wf).start (ix1 t) idx 0 = (idx (ix2 t (0 : Fin 1))).toInt := by
  unfold ScatterDims.start
  rw [dif_pos (show (0 : Fin 1) ∈ (vecScatterDims N T wf).scatterDimsToOperandDims from List.mem_singleton.mpr rfl),
    vecScatter_siIdx]

/-- That axis is inserted (a scalar update has no window): the window coordinate is `0`. -/
theorem vecScatter_window (t : Fin T) : (vecScatterDims N T wf).window (ix1 t) 0 = 0 := rfl

/-- Update `t` lands on operand position `n` exactly when its start index, read signed, is `n`. -/
theorem vecScatter_lands_iff (idx : IVec ⟨2, ![T, 1]⟩ w) (t : Fin T) (n : Fin N) :
    (vecScatterDims N T wf).resultIdx? (ix1 t) idx = some (ix1 n) ↔ (idx (ix2 t (0 : Fin 1))).toInt = (n.val : Int) := by
  rw [resultIdx?_eq_some_iff]
  constructor
  · intro hall
    have h0 := hall 0
    rw [vecScatter_start, vecScatter_window] at h0
    have h0' : (idx (ix2 t (0 : Fin 1))).toInt + ((0 : Nat) : Int) = (n.val : Int) := h0
    omega
  · intro h0 a
    match a with
    | ⟨0, _⟩ =>
      show (vecScatterDims N T wf).start (ix1 t) idx 0 + (((vecScatterDims N T wf).window (ix1 t) 0 : Nat) : Int)
        = (n.val : Int)
      rw [vecScatter_start, vecScatter_window]
      omega

end VecScatter

/-- THE ACCUMULATING SCATTER OF SCALARS READ AT `n`, at the ideal instance. -/
theorem vecScatterAdd_apply {N T w : Nat}
    (wf : ScatterDims.WF ⟨1, ![N]⟩ ⟨2, ![T, 1]⟩ ⟨1, ![T]⟩ [] [0] [0] 1)
    (x : (⟨1, ![N]⟩ : Shape).Idx → EReal) (idx : IVec ⟨2, ![T, 1]⟩ w) (upd : (⟨1, ![T]⟩ : Shape).Idx → EReal)
    (n : Fin N) :
    Ideal.hostScatterAdd (vecScatterDims N T wf) x idx upd (ix1 n)
      = x (ix1 n) + ∑ t ∈ Finset.univ.filter (fun t : Fin T => (idx (ix2 t (0 : Fin 1))).toInt = (n.val : Int)), upd (ix1 t) := by
  unfold Ideal.hostScatterAdd
  congr 1
  -- an update position is its one coordinate t, and it lands on n exactly when idx[t] = n
  refine Finset.sum_nbij' (fun y => (y 0 : Fin T)) (fun t => ix1 t) ?_ ?_ ?_ ?_ ?_
  · intro y hy
    obtain ⟨t, rfl⟩ : ∃ t, y = ix1 t := ⟨y 0, eq_ix1 y⟩
    exact Finset.mem_filter.mpr ⟨Finset.mem_univ _, (vecScatter_lands_iff wf idx t n).mp (Finset.mem_filter.mp hy).2⟩
  · intro t ht
    exact Finset.mem_filter.mpr ⟨Finset.mem_univ _, (vecScatter_lands_iff wf idx t n).mpr (Finset.mem_filter.mp ht).2⟩
  · intro y _
    exact (eq_ix1 y).symm
  · intro t _
    rfl
  · intro y _
    exact congrArg upd (eq_ix1 y)

end Cert.LibIndex

end
-- ==== Proof.RefValue.lean ====
/-
  The reference program's result, entry by entry, is the node update of Spec.lean.
  Its first dense layer multiplies the concatenation [own features | mean edge attributes | graph features] by the
  whole first weight matrix; read at an entry that product is a sum over 144 input features, which splits into the
  three sums of the specification by associativity alone. The graph features come from a gather: the node's graph
  index, wrapped when negative, read signed and clamped into the table's 64 rows.
-/
import proofs.«415170_j82343112999493_3_alg».proof.Proof.Gen.ReferenceIdeal.Read
import proofs.«415170_j82343112999493_3_alg».proof.Proof.Spec
import proofs.«415170_j82343112999493_3_alg».proof.Proof.LibIndex
import proofs.«415170_j82343112999493_3_alg».proof.Proof.LibPlainDot
import Idealize.ShloMosaic.Lib.Pipeline.Value

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.ShloMosaic.StableHlo

/-- The row of the graph table the reference reads for node p: the wrapped index, read signed, clamped into [0, 63]. -/
def refRow (x4 : (⟨S100000, .i32⟩ : BufTy).Contents (Elt Ideal)) (p : Fin 100000) : Fin 64 :=
  ⟨min (val_main_v18 (F := Ideal) x4 (ix1 p) : BitVec 32).toInt.toNat 63, by omega⟩

/-! ## The reference read one stage at a time

Each stage of the reference is read at one entry. The contraction indices of the three products and the indices of the
broadcasts are the evident coordinate pairs; the concatenation is read in each of its three column ranges; the gather
reads the graph table at the node's row; the mean is the segment sum over the count floored at one. -/
section
variable (x0 : (⟨S100000x64, .f32⟩ : BufTy).Contents (Elt Ideal)) (x1 : (⟨S2x1600000, .i32⟩ : BufTy).Contents (Elt Ideal)) (x2 : (⟨S1600000x48, .f32⟩ : BufTy).Contents (Elt Ideal)) (x3 : (⟨S64x32, .f32⟩ : BufTy).Contents (Elt Ideal)) (x4 : (⟨S100000, .i32⟩ : BufTy).Contents (Elt Ideal)) (x5 : (⟨S144x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x64, .f32⟩ : BufTy).Contents (Elt Ideal)) (x10 : (⟨S64, .f32⟩ : BufTy).Contents (Elt Ideal))

/-- The concatenation's first 64 columns are the node's own features. -/
theorem v21_x (p : Fin 100000) (a : Fin 64) :
    val_main_v21 (F := Ideal) x0 x1 x2 x3 x4 (ix2 p (⟨a.val, by have := a.isLt; omega⟩ : Fin 144)) = x0 (ix2 p a) := by
  unfold val_main_v21
  generalize val_main_v13 (F := Ideal) x1 x2 = y1
  generalize val_main_v20 (F := Ideal) x3 x4 = y2
  refine concatenate_apply_piece (t := S100000x144) (1 : Fin S100000x144.rank)
    [⟨S100000x64, x0⟩, ⟨S100000x48, y1⟩, ⟨S100000x32, y2⟩]
    concatenates_S100000x64_S100000x48_S100000x32_S100000x144_d1 _ 0 (show (0 : Nat) < 3 by omega) S100000x64 x0 rfl rfl 0 rfl (ix2 p a) ?_ ?_
  · intro b hb
    match b with
    | ⟨0, _⟩ => rfl
    | ⟨1, _⟩ => exact absurd rfl hb
  · show 0 + a.val = a.val
    omega

/-- Its next 48 columns are the mean edge attributes. -/
theorem v21_e (p : Fin 100000) (a : Fin 48) :
    val_main_v21 (F := Ideal) x0 x1 x2 x3 x4 (ix2 p (⟨64 + a.val, by have := a.isLt; omega⟩ : Fin 144))
      = val_main_v13 (F := Ideal) x1 x2 (ix2 p a) := by
  unfold val_main_v21
  generalize val_main_v13 (F := Ideal) x1 x2 = y1
  generalize val_main_v20 (F := Ideal) x3 x4 = y2
  refine concatenate_apply_piece (t := S100000x144) (1 : Fin S100000x144.rank)
    [⟨S100000x64, x0⟩, ⟨S100000x48, y1⟩, ⟨S100000x32, y2⟩]
    concatenates_S100000x64_S100000x48_S100000x32_S100000x144_d1 _ 1 (show (1 : Nat) < 3 by omega) S100000x48 y1 rfl rfl 64 rfl (ix2 p a) ?_ ?_
  · intro b hb
    match b with
    | ⟨0, _⟩ => rfl
    | ⟨1, _⟩ => exact absurd rfl hb
  · show 64 + a.val = 64 + a.val
    rfl

/-- Its last 32 columns are the gathered graph features. -/
theorem v21_u (p : Fin 100000) (a : Fin 32) :
    val_main_v21 (F := Ideal) x0 x1 x2 x3 x4 (ix2 p (⟨112 + a.val, by have := a.isLt; omega⟩ : Fin 144))
      = val_main_v20 (F := Ideal) x3 x4 (ix2 p a) := by
  unfold val_main_v21
  generalize val_main_v13 (F := Ideal) x1 x2 = y1
  generalize val_main_v20 (F := Ideal) x3 x4 = y2
  refine concatenate_apply_piece (t := S100000x144) (1 : Fin S100000x144.rank)
    [⟨S100000x64, x0⟩, ⟨S100000x48, y1⟩, ⟨S100000x32, y2⟩]
    concatenates_S100000x64_S100000x48_S100000x32_S100000x144_d1 _ 2 (show (2 : Nat) < 3 by omega) S100000x32 y2 rfl rfl 112 rfl (ix2 p a) ?_ ?_
  · intro b hb
    match b with
    | ⟨0, _⟩ => rfl
    | ⟨1, _⟩ => exact absurd rfl hb
  · show 112 + a.val = 112 + a.val
    rfl

/-- The gather reads the graph table at the node's row. -/
theorem v20_eq (p : Fin 100000) (a : Fin 32) :
    val_main_v20 (F := Ideal) x3 x4 (ix2 p a) = x3 (ix2 (refRow x4 p) a) := by
  unfold val_main_v20
  have e : gather_S64x32_S100000x1_S100000x32_1_0_n_n_0_1_132
      = Cert.LibIndex.rowGatherDims 64 100000 32 Facts₀.gather_S64x32_S100000x1_S100000x32_1_0_n_n_0_1_132_wf := rfl
  have h19 : val_main_v19 (F := Ideal) x4 (ix2 p (0 : Fin 1)) = val_main_v18 (F := Ideal) x4 (ix1 p) := by
    rw [val_main_v19_apply]
    exact congrArg (val_main_v18 (F := Ideal) x4) (funext fun b => Fin.ext (by match b with | ⟨0, _⟩ => rfl))
  rw [e, Cert.LibIndex.rowGather_apply (N := 64) (by decide)]
  refine congrArg (fun r : Fin 64 => x3 (ix2 r a)) (Fin.ext ?_)
  show min (BitVec.toInt (val_main_v19 (F := Ideal) x4 (ix2 p (0 : Fin 1)))).toNat (64 - 1)
    = min (BitVec.toInt (val_main_v18 (F := Ideal) x4 (ix1 p))).toNat 63
  rw [h19]

/-- The mean edge attribute: the sum over the count floored at one. -/
theorem v13_eq (p : Fin 100000) (a : Fin 48) :
    val_main_v13 (F := Ideal) x1 x2 (ix2 p a)
      = Ideal.div (val_main_v4 (F := Ideal) x1 x2 (ix2 p a)) (max (val_main_v8 (F := Ideal) x1 (ix1 p)) NodeMlp.oneW) := by
  rw [val_main_v13_apply, val_main_v12_apply, val_main_v11_apply, val_main_v10_apply, val_main_v9_apply,
    val_main_cst_2_apply]
  have e : idx_main_v11 (idx_main_v12 (ix2 p a)) = ix1 p := funext fun b => Fin.ext (by match b with | ⟨0, _⟩ => rfl)
  rw [e, Ideal.hostDivf_def, Ideal.maximumf_def, Ideal.ofBits_def]

theorem lidx22 (p : Fin 100000) (j : Fin 128) (k : Fin 144) : lidx_main_v22 (ix2 p j) k = ix2 p k :=
  funext fun a => Fin.ext (by match a with | ⟨0, _⟩ => rfl | ⟨1, _⟩ => rfl)
theorem ridx22 (p : Fin 100000) (j : Fin 128) (k : Fin 144) : ridx_main_v22 (ix2 p j) k = ix2 k j :=
  funext fun a => Fin.ext (by match a with | ⟨0, _⟩ => rfl | ⟨1, _⟩ => rfl)

/-- The first dense layer's product at (p, j), over the 144 input features. -/
theorem v22_sum (p : Fin 100000) (j : Fin 128) :
    val_main_v22 (F := Ideal) x0 x1 x2 x3 x4 x5 (ix2 p j)
      = ∑ k : Fin 144, val_main_v21 (F := Ideal) x0 x1 x2 x3 x4 (ix2 p k) * x5 (ix2 k j) := by
  rw [val_main_v22_apply]
  exact Finset.sum_congr rfl fun k _ => by rw [lidx22, ridx22]

/-- That product as the three sums of the specification. -/
theorem v22_eq (p : Fin 100000) (j : Fin 128) :
    val_main_v22 (F := Ideal) x0 x1 x2 x3 x4 x5 (ix2 p j) =
      ((∑ a : Fin 64, x0 (ix2 p a) * NodeMlp.rows x5 0 64 (by omega) (ix2 a j))
        + ∑ a : Fin 48, Ideal.div (val_main_v4 (F := Ideal) x1 x2 (ix2 p a)) (max (val_main_v8 (F := Ideal) x1 (ix1 p)) NodeMlp.oneW)
            * NodeMlp.rows x5 64 48 (by omega) (ix2 a j))
        + ∑ a : Fin 32, x3 (ix2 (refRow x4 p) a) * NodeMlp.rows x5 112 32 (by omega) (ix2 a j) := by
  rw [v22_sum, NodeMlp.sum_split3]
  refine congrArg₂ (· + ·) (congrArg₂ (· + ·) ?_ ?_) ?_
  · refine Finset.sum_congr rfl fun a _ => ?_
    rw [v21_x, NodeMlp.rows_apply]
    exact congrArg (fun k : Fin 144 => x0 (ix2 p a) * x5 (ix2 k j)) (Fin.ext (Nat.zero_add _).symm)
  · refine Finset.sum_congr rfl fun a _ => ?_
    rw [v21_e, v13_eq, NodeMlp.rows_apply]
  · refine Finset.sum_congr rfl fun a _ => ?_
    rw [v21_u, v20_eq, NodeMlp.rows_apply]

theorem lidx27 (p : Fin 100000) (j : Fin 128) (k : Fin 128) : lidx_main_v27 (ix2 p j) k = ix2 p k :=
  funext fun a => Fin.ext (by match a with | ⟨0, _⟩ => rfl | ⟨1, _⟩ => rfl)
theorem ridx27 (p : Fin 100000) (j : Fin 128) (k : Fin 128) : ridx_main_v27 (ix2 p j) k = ix2 k j :=
  funext fun a => Fin.ext (by match a with | ⟨0, _⟩ => rfl | ⟨1, _⟩ => rfl)
theorem lidx32 (p : Fin 100000) (q : Fin 64) (k : Fin 128) : lidx_main_v32 (ix2 p q) k = ix2 p k :=
  funext fun a => Fin.ext (by match a with | ⟨0, _⟩ => rfl | ⟨1, _⟩ => rfl)
theorem ridx32 (p : Fin 100000) (q : Fin 64) (k : Fin 128) : ridx_main_v32 (ix2 p q) k = ix2 k q :=
  funext fun a => Fin.ext (by match a with | ⟨0, _⟩ => rfl | ⟨1, _⟩ => rfl)

/-- The three biases, broadcast over the nodes. -/
theorem v24_eq (p : Fin 100000) (j : Fin 128) : val_main_v24 (F := Ideal) x6 (ix2 p j) = x6 (ix1 j) := by
  rw [val_main_v24_apply, val_main_v23_apply]
  exact congrArg x6 (funext fun a => Fin.ext (by match a with | ⟨0, _⟩ => rfl))
theorem v29_eq (p : Fin 100000) (j : Fin 128) : val_main_v29 (F := Ideal) x8 (ix2 p j) = x8 (ix1 j) := by
  rw [val_main_v29_apply, val_main_v28_apply]
  exact congrArg x8 (funext fun a => Fin.ext (by match a with | ⟨0, _⟩ => rfl))
theorem v34_eq (p : Fin 100000) (q : Fin 64) : val_main_v34 (F := Ideal) x10 (ix2 p q) = x10 (ix1 q) := by
  rw [val_main_v34_apply, val_main_v33_apply]
  exact congrArg x10 (funext fun a => Fin.ext (by match a with | ⟨0, _⟩ => rfl))

/-- The two rectifiers' thresholds. -/
theorem relu0_eq (i : S100000x128.Idx) : val_main_call0_v0 (F := Ideal) i = NodeMlp.zeroW := by
  rw [val_main_call0_v0_apply, val_main_call0_cst_apply]
  exact Ideal.ofBits_def _
theorem relu1_eq (i : S100000x128.Idx) : val_main_call1_v0 (F := Ideal) i = NodeMlp.zeroW := by
  rw [val_main_call1_v0_apply, val_main_call1_cst_apply]
  exact Ideal.ofBits_def _

/-- The first layer at (p, j). -/
theorem v26_eq (p : Fin 100000) (j : Fin 128) :
    val_main_v26 (F := Ideal) x0 x1 x2 x3 x4 x5 x6 (ix2 p j)
      = NodeMlp.hid1 (NodeMlp.rows x5 0 64 (by omega)) (NodeMlp.rows x5 64 48 (by omega)) (NodeMlp.rows x5 112 32 (by omega)) x6
          (fun a => x0 (ix2 p a))
          (fun a => Ideal.div (val_main_v4 (F := Ideal) x1 x2 (ix2 p a)) (max (val_main_v8 (F := Ideal) x1 (ix1 p)) NodeMlp.oneW))
          (fun a => x3 (ix2 (refRow x4 p) a)) j := by
  rw [val_main_v26_apply, val_main_v25_apply, relu0_eq, v24_eq, v22_eq]
  rfl

/-- The second layer's product at (p, k). -/
theorem v27_eq (p : Fin 100000) (k : Fin 128) :
    val_main_v27 (F := Ideal) x0 x1 x2 x3 x4 x5 x6 x7 (ix2 p k)
      = ∑ j : Fin 128, val_main_v26 (F := Ideal) x0 x1 x2 x3 x4 x5 x6 (ix2 p j) * x7 (ix2 j k) := by
  rw [val_main_v27_apply]
  exact Finset.sum_congr rfl fun j _ => by rw [lidx27, ridx27]

/-- The second layer at (p, k), over the first layer's row. -/
theorem v31_eq (p : Fin 100000) (k : Fin 128) :
    val_main_v31 (F := Ideal) x0 x1 x2 x3 x4 x5 x6 x7 x8 (ix2 p k)
      = NodeMlp.hid2 x7 x8 (fun j => val_main_v26 (F := Ideal) x0 x1 x2 x3 x4 x5 x6 (ix2 p j)) k := by
  rw [val_main_v31_apply, val_main_v30_apply, relu1_eq, v29_eq, v27_eq]
  rfl

/-- The output layer's product at (p, q). -/
theorem v32_eq (p : Fin 100000) (q : Fin 64) :
    val_main_v32 (F := Ideal) x0 x1 x2 x3 x4 x5 x6 x7 x8 x9 (ix2 p q)
      = ∑ k : Fin 128, val_main_v31 (F := Ideal) x0 x1 x2 x3 x4 x5 x6 x7 x8 (ix2 p k) * x9 (ix2 k q) := by
  rw [val_main_v32_apply]
  exact Finset.sum_congr rfl fun k _ => by rw [lidx32, ridx32]

/-- The output layer at (p, q), over the second layer's row. -/
theorem v35_eq (p : Fin 100000) (q : Fin 64) :
    val_main_v35 (F := Ideal) x0 x1 x2 x3 x4 x5 x6 x7 x8 x9 x10 (ix2 p q)
      = NodeMlp.outp x9 x10 (fun k => val_main_v31 (F := Ideal) x0 x1 x2 x3 x4 x5 x6 x7 x8 (ix2 p k)) q := by
  rw [val_main_v35_apply, v34_eq, v32_eq]
  rfl

end

/-- THE REFERENCE AT (p, q) is the node update of node p at feature q, over the two segment sums kept whole. -/
theorem ref_apply (x0 : (⟨S100000x64, .f32⟩ : BufTy).Contents (Elt Ideal)) (x1 : (⟨S2x1600000, .i32⟩ : BufTy).Contents (Elt Ideal)) (x2 : (⟨S1600000x48, .f32⟩ : BufTy).Contents (Elt Ideal)) (x3 : (⟨S64x32, .f32⟩ : BufTy).Contents (Elt Ideal)) (x4 : (⟨S100000, .i32⟩ : BufTy).Contents (Elt Ideal)) (x5 : (⟨S144x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x64, .f32⟩ : BufTy).Contents (Elt Ideal)) (x10 : (⟨S64, .f32⟩ : BufTy).Contents (Elt Ideal)) (p : Fin 100000) (q : Fin 64) :
    val_main_v35 (F := Ideal) x0 x1 x2 x3 x4 x5 x6 x7 x8 x9 x10 (ix2 p q)
      = NodeMlp.nodeAt x0 (val_main_v4 (F := Ideal) x1 x2) (val_main_v8 (F := Ideal) x1) x3 x5 x6 x7 x8 x9 x10 (refRow x4) p q := by
  have h1 : (fun j => val_main_v26 (F := Ideal) x0 x1 x2 x3 x4 x5 x6 (ix2 p j)) = _ :=
    funext fun j => v26_eq x0 x1 x2 x3 x4 x5 x6 p j
  have h2 : (fun k => val_main_v31 (F := Ideal) x0 x1 x2 x3 x4 x5 x6 x7 x8 (ix2 p k)) = _ :=
    funext fun k => v31_eq x0 x1 x2 x3 x4 x5 x6 x7 x8 p k
  rw [v35_eq, h2, h1]
  rfl

/-- So the reference's result array is the layer. -/
theorem ref_eq (x0 : (⟨S100000x64, .f32⟩ : BufTy).Contents (Elt Ideal)) (x1 : (⟨S2x1600000, .i32⟩ : BufTy).Contents (Elt Ideal)) (x2 : (⟨S1600000x48, .f32⟩ : BufTy).Contents (Elt Ideal)) (x3 : (⟨S64x32, .f32⟩ : BufTy).Contents (Elt Ideal)) (x4 : (⟨S100000, .i32⟩ : BufTy).Contents (Elt Ideal)) (x5 : (⟨S144x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x64, .f32⟩ : BufTy).Contents (Elt Ideal)) (x10 : (⟨S64, .f32⟩ : BufTy).Contents (Elt Ideal)) :
    val_main_v35 (F := Ideal) x0 x1 x2 x3 x4 x5 x6 x7 x8 x9 x10
      = NodeMlp.layer x0 (val_main_v4 (F := Ideal) x1 x2) (val_main_v8 (F := Ideal) x1) x3 x5 x6 x7 x8 x9 x10 (refRow x4) := by
  funext i
  obtain ⟨p, q, rfl⟩ : ∃ (p : Fin 100000) (q : Fin 64), i = ix2 p q := ⟨i 0, i 1, eq_ix2 i⟩
  exact ref_apply x0 x1 x2 x3 x4 x5 x6 x7 x8 x9 x10 p q

end Cert.ReferenceIdeal.RefValue

end
-- ==== Proof.PreFacts.lean ====
/-
  What the precondition says of the graph indices.
  The precondition's last conjunct is "every node's graph index is at least 0, compared signed", printed as an
  and-reduction of the comparison's bits. Read back, it says each index's signed reading is not negative; then the
  kernel's clamp and the reference's wrap-then-clamp choose the same row of the graph table for every node.
-/
import proofs.«415170_j82343112999493_3_alg».proof.Pre_finite_inputs
import proofs.«415170_j82343112999493_3_alg».proof.Proof.Gen.Pre_finite_inputs
import proofs.«415170_j82343112999493_3_alg».proof.Proof.Clamp
import Idealize.ShloMosaic.Lib.ReduceAll
import Idealize.ShloMosaic.Lib.ValueIdx

noncomputable section

namespace Cert.Pre_finite_inputs.Decode

open Cert.Pre_finite_inputs Idealize.ShloMosaic Idealize.ShloMosaic.ValueIdx

instance : Subsingleton S_.Idx := ⟨fun a b => funext fun d => d.elim0⟩

/-- Under the precondition every graph index, read signed, is not negative. -/
theorem batch_nonneg {F : FTy → Type} [FloatOps F] (a0 : FVec F S100000x64 .f32) (a1 : IVec S2x1600000 32)
    (a2 : FVec F S1600000x48 .f32) (a3 : FVec F S64x32 .f32) (a4 : IVec S100000 32) (a5 : FVec F S144x128 .f32)
    (a6 : FVec F S128 .f32) (a7 : FVec F S128x128 .f32) (a8 : FVec F S128 .f32) (a9 : FVec F S128x64 .f32)
    (a10 : FVec F S64 .f32)
    (h : fn (F := F) a0 a1 a2 a3 a4 a5 a6 a7 a8 a9 a10 = fun _ => 1#1) (i : S100000.Idx) : 0 ≤ (a4 i).toInt := by
  have h0 := congrFun h ix0
  unfold fn at h0
  dsimp only at h0
  unfold fn_part1 at h0
  dsimp only at h0
  unfold fn_part2 at h0
  dsimp only at h0
  have h1 := (IntOp.andi_eq_one.1 h0).2
  have h2 := Host.reduce_andi_all _ _ _ _ ix0 h1 i
  exact GraphRow.nonneg_of_sge _ h2

end Cert.Pre_finite_inputs.Decode

end
-- ==== Proof.lean ====
/-
  The node update of a message-passing layer: a Pallas kernel against its jnp reference, equal over the extended reals.
  Both programs form, for every node, the mean of the attributes of the edges that start at it (two segment sums, the
  same host operations on both sides, kept here as whole terms) and feed [own features | mean | features of the node's
  graph] through three dense layers with rectifiers. They differ in three ways, none of which changes a value at the
  ideal instance. The kernel rounds matrix operands to bf16: a change of float format is the identity there. The kernel
  splits the first weight matrix into three groups of rows and adds three products where the reference multiplies the
  concatenation by the whole matrix: a sum over 144 terms split into 64 + 48 + 32, by associativity alone. And the
  kernel selects a graph's row by a product with a 0/1 indicator of the graph index clamped into [0, 63], where the
  reference gathers at the index, wrapped if negative and clamped: the indicator sum is the selected row because
  0 * y = 0 and 1 * y = y for every extended real y, and the two row choices agree exactly when no graph index is
  negative, which is the hypothesis the precondition carries beside finiteness (finiteness itself is never used).
-/
import proofs.«415170_j82343112999493_3_alg».proof.Defs
import proofs.«415170_j82343112999493_3_alg».proof.Proof.Gen.Kernel
import proofs.«415170_j82343112999493_3_alg».proof.Proof.Gen.Kernel.Skeleton
import proofs.«415170_j82343112999493_3_alg».proof.Proof.Gen.Kernel.Launch
import proofs.«415170_j82343112999493_3_alg».proof.Proof.Gen.Kernel.Points
import proofs.«415170_j82343112999493_3_alg».proof.Proof.Gen.Kernel.Frame
import proofs.«415170_j82343112999493_3_alg».proof.Proof.Gen.KernelIdeal
import proofs.«415170_j82343112999493_3_alg».proof.Proof.Gen.KernelIdeal.Skeleton
import proofs.«415170_j82343112999493_3_alg».proof.Proof.Gen.KernelIdeal.Launch
import proofs.«415170_j82343112999493_3_alg».proof.Proof.Gen.KernelIdeal.Points
import proofs.«415170_j82343112999493_3_alg».proof.Proof.Gen.KernelIdeal.Frame
import proofs.«415170_j82343112999493_3_alg».proof.Proof.Gen.ReferenceIdeal
import proofs.«415170_j82343112999493_3_alg».proof.Proof.Gen.Pre_finite_inputs
import proofs.«415170_j82343112999493_3_alg».proof.Proof.Gen.KernelIdeal.Value
import proofs.«415170_j82343112999493_3_alg».proof.Proof.Gen.ReferenceIdeal.Run
import proofs.«415170_j82343112999493_3_alg».proof.Proof.Gen.ReferenceIdeal.Read
import proofs.«415170_j82343112999493_3_alg».proof.Proof.KernelValue
import proofs.«415170_j82343112999493_3_alg».proof.Proof.RefValue
import proofs.«415170_j82343112999493_3_alg».proof.Proof.PreFacts
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The per-node sum of edge attributes is the same term in both programs. -/
theorem sums_eq (x1 : IVec ⟨2, ![2, 1600000]⟩ 32) (x2 : FVec Ideal ⟨2, ![1600000, 48]⟩ .f32) :
    Cert.ReferenceIdeal.Read.val_main_v4 (F := Ideal) x1 x2 = Cert.KernelIdeal.HostPrefix.sumsK (F := Ideal) x1 x2 := rfl

/-- The per-node edge count is the same term in both programs. -/
theorem cnt_eq (x1 : IVec ⟨2, ![2, 1600000]⟩ 32) :
    Cert.ReferenceIdeal.Read.val_main_v8 (F := Ideal) x1 = Cert.KernelIdeal.HostPrefix.cntK (F := Ideal) x1 := rfl

/-- When no graph index is negative the clamp and the wrap-then-clamp choose the same row for every node. -/
theorem rows_agree (x4 : IVec ⟨1, ![100000]⟩ 32) (h : ∀ i, 0 ≤ (x4 i).toInt) :
    Cert.ReferenceIdeal.RefValue.refRow x4 = Cert.KernelIdeal.KValue.kerRow x4 := by
  funext p
  apply Fin.ext
  have hw : (Cert.ReferenceIdeal.Read.val_main_v18 (F := Ideal) x4 (ix1 p) : BitVec 32) = x4 (ix1 p) :=
    GraphRow.wrap_of_nonneg _ (h _)
  show min (Cert.ReferenceIdeal.Read.val_main_v18 (F := Ideal) x4 (ix1 p) : BitVec 32).toInt.toNat 63
    = (GraphRow.clip (x4 (ix1 p))).toNat
  rw [hw, GraphRow.clip_toNat_of_nonneg _ (h _)]

/-- Both idealized programs end with the layer of the arguments in their result arrays. -/
theorem algebraic : Cert.algebraic_KernelIdeal_ReferenceIdeal := by
  intro m ρ m' ρ' hpre hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  have hnn := Cert.Pre_finite_inputs.Decode.batch_nonneg (F := Ideal) _ _ _ _ _ _ _ _ _ _ _ (hpre c)
  rw [Cert.ReferenceIdeal.Read.val_main_v35_eq, Cert.ReferenceIdeal.RefValue.ref_eq, e0, e1, e2, e3, e4, e5, e6, e7, e8,
    e9, e10, sums_eq, cnt_eq, rows_agree _ hnn]

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
